-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x64 : Shape := ⟨2, ![512, 64]⟩
abbrev S128x1 : Shape := ⟨2, ![128, 1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S128x1 : S_.BroadcastsInDim S128x1 (![] : Fin 0 → Fin S128x1.rank)
  reducesTo_S128x1_S_d0_1 : S128x1.ReducesTo [0, 1] S_

variable [Facts]

def fn {F : FTy → Type} [FloatOps F] (main_arg0 : FVec F S8192x512 .f32) (main_arg1 : IVec S8192x8192 32) (main_arg2 : FVec F S512x64 .f32) (main_arg3 : FVec F S128x1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S128x1 .f32 := Host.absf main_arg3
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  main_v13
-- ==== Kernel.lean ====
abbrev S8192x512 : Shape := ⟨2, ![8192, 512]⟩
abbrev S8192x8192 : Shape := ⟨2, ![8192, 8192]⟩
abbrev S512x64 : Shape := ⟨2, ![512, 64]⟩
abbrev S128x1 : Shape := ⟨2, ![128, 1]⟩
abbrev S64x1 : Shape := ⟨2, ![64, 1]⟩
abbrev S1x64 : Shape := ⟨2, ![1, 64]⟩
abbrev S8192x128 : Shape := ⟨2, ![8192, 128]⟩
abbrev S8192x1 : Shape := ⟨2, ![8192, 1]⟩
abbrev S1024x512 : Shape := ⟨2, ![1024, 512]⟩
abbrev S1024x128 : Shape := ⟨2, ![1024, 128]⟩
abbrev S1024x1 : Shape := ⟨2, ![1024, 1]⟩
abbrev S1024x64 : Shape := ⟨2, ![1024, 64]⟩
abbrev S1024x63 : Shape := ⟨2, ![1024, 63]⟩
abbrev S1024 : Shape := ⟨1, ![1024]⟩
abbrev S1x8192 : Shape := ⟨2, ![1, 8192]⟩
abbrev S8192x64 : Shape := ⟨2, ![8192, 64]⟩
abbrev S128x8192 : Shape := ⟨2, ![128, 8192]⟩
abbrev S128x64 : Shape := ⟨2, ![128, 64]⟩
abbrev S128 : Shape := ⟨1, ![128]⟩
abbrev S128x128 : Shape := ⟨2, ![128, 128]⟩

abbrev nBuf : Space → Nat
  | .hbm => 13
  | .vmem => 19
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S512x64, .f32⟩
  | .hbm, ⟨3, _⟩ => ⟨S128x1, .f32⟩
  | .hbm, ⟨4, _⟩ => ⟨S64x1, .f32⟩
  | .hbm, ⟨5, _⟩ => ⟨S1x64, .f32⟩
  | .hbm, ⟨6, _⟩ => ⟨S64x1, .f32⟩
  | .hbm, ⟨7, _⟩ => ⟨S1x64, .f32⟩
  | .hbm, ⟨8, _⟩ => ⟨S8192x128, .bf16⟩
  | .hbm, ⟨9, _⟩ => ⟨S8192x1, .f32⟩
  | .hbm, ⟨10, _⟩ => ⟨S8192x1, .f32⟩
  | .hbm, ⟨11, _⟩ => ⟨S1x8192, .f32⟩
  | .hbm, ⟨12, _⟩ => ⟨S8192x64, .f32⟩
  | .local _ .vmem, ⟨0, _⟩ => ⟨S1024x512, .f32⟩
  | .local _ .vmem, ⟨1, _⟩ => ⟨S1024x512, .f32⟩
  | .local _ .vmem, ⟨2, _⟩ => ⟨S512x64, .f32⟩
  | .local _ .vmem, ⟨3, _⟩ => ⟨S1x64, .f32⟩
  | .local _ .vmem, ⟨4, _⟩ => ⟨S1x64, .f32⟩
  | .local _ .vmem, ⟨5, _⟩ => ⟨S1024x128, .bf16⟩
  | .local _ .vmem, ⟨6, _⟩ => ⟨S1024x128, .bf16⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S128x1, .f32⟩
  | .local _ .vmem, ⟨12, _⟩ => ⟨S128x1, .f32⟩
  | .local _ .vmem, ⟨13, _⟩ => ⟨S1x8192, .f32⟩
  | .local _ .vmem, ⟨14, _⟩ => ⟨S8192x128, .bf16⟩
  | .local _ .vmem, ⟨15, _⟩ => ⟨S128x8192, .i32⟩
  | .local _ .vmem, ⟨16, _⟩ => ⟨S128x8192, .i32⟩
  | .local _ .vmem, ⟨17, _⟩ => ⟨S128x64, .f32⟩
  | .local _ .vmem, ⟨18, _⟩ => ⟨S128x64, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x8192 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S128x1_S64x1_0_0 : S128x1.Slices ![0, 0] S64x1
  shapeCasts_S64x1_S1x64 : S64x1.ShapeCasts S1x64
  slices_S128x1_S64x1_64_0 : S128x1.Slices ![64, 0] S64x1
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  concatenates_S1024x64_S1024x1_S1024x63_S1024x128_d1 : Shape.Concatenates [S1024x64, S1024x1, S1024x63] S1024x128 1
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  reduces_S1024x64_S1024 : S1024x64.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S8192x1_S1x8192 : S8192x1.ShapeCasts S1x8192
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S128x8192_S128x8192_0_0 : ∀ a, (![0, 0] : Fin 2 → Nat) a + S128x8192.size a ≤ S128x8192.size a
  h_S128x8192 : 0 < S128x8192.numel
  broadcasts_S128x1_S128x8192 : S128x1.Broadcasts S128x8192
  broadcasts_S1x8192_S128x8192 : S1x8192.Broadcasts S128x8192
  reduces_S128x8192_S128 : S128x8192.Reduces [1] S128
  shapeCasts_S128_S128x1 : S128.ShapeCasts S128x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  slices_S128x128_o0_64_S128x1 : S128x128.Slices ![0, 64] S128x1
  slices_S128x128_o0_0_S128x64 : S128x128.Slices ![0, 0] S128x64
  broadcasts_S128x1_S128x64 : S128x1.Broadcasts S128x64
  inb_S128x64_S128x64_0_0 : ∀ a, (![0, 0] : Fin 2 → Nat) a + S128x64.size a ≤ S128x64.size a
  h_S128x64 : 0 < S128x64.numel
  dot_S1024x512_S512x64_S1024x64_1_0_0_1_n_n_wf : DotDims.WF S1024x512 S512x64 S1024x64 [1] [0] [0] [1] [] []
  dot_S128x8192_S8192x128_S128x128_1_0_0_1_n_n_wf : DotDims.WF S128x8192 S8192x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .bf16 = 32 ∨ (Rect.block (s := S8192x128) S1024x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1.size a ≤ S8192x1.size a
  hwx1_0 : ∀ i : grid1.Coords, EltTy.bits .f32 = 32 ∨ (Rect.block (s := S8192x1) S128x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8192.size a ≤ S1x8192.size a
  hwx1_1 : ∀ i : grid1.Coords, EltTy.bits .f32 = 32 ∨ (Rect.block (s := S1x8192) S1x8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S8192x128.size a
  hwx1_2 : ∀ i : grid1.Coords, EltTy.bits .bf16 = 32 ∨ (Rect.block (s := S8192x128) S8192x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x8192.size a ≤ S8192x8192.size a
  hwx1_3 : ∀ i : grid1.Coords, EltTy.bits .i32 = 32 ∨ (Rect.block (s := S8192x8192) S128x8192.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S8192x64.size a
  hwx1_4 : ∀ i : grid1.Coords, EltTy.bits .f32 = 32 ∨ (Rect.block (s := S8192x64) S128x64.size (cc1_transform_4 i) (hinb1_4 i)).WholeWords (EltTy.packing .f32)

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S128x8192_S8192x128_S128x128_1_0_0_1_n_n : DotDims S128x8192 S8192x128 S128x128 where
  lhsContracting := [1]
  rhsContracting := [0]
  lhsNonContracting := [0]
  rhsNonContracting := [1]
  lhsBatch := []
  rhsBatch := []
  wf := dot_S128x8192_S8192x128_S128x128_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1024x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v4_1) S128x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4_0) S8192x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S128x8192.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S128x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S512x64 : Shape := ⟨2, ![512, 64]⟩
abbrev S128x1 : Shape := ⟨2, ![128, 1]⟩
abbrev S_ : Shape := ⟨0, ![]⟩
abbrev S8192x64 : Shape := ⟨2, ![8192, 64]⟩
abbrev S64x1 : Shape := ⟨2, ![64, 1]⟩
abbrev S8192x1 : Shape := ⟨2, ![8192, 1]⟩
abbrev S1x8192 : Shape := ⟨2, ![1, 8192]⟩
abbrev S8192 : Shape := ⟨1, ![8192]⟩

abbrev nBuf : Space → Nat
  | .hbm => 57
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S512x64, .f32⟩
  | .hbm, ⟨3, _⟩ => ⟨S128x1, .f32⟩
  | .hbm, ⟨4, _⟩ => ⟨S_, .f32⟩
  | .hbm, ⟨5, _⟩ => ⟨S8192x64, .f32⟩
  | .hbm, ⟨6, _⟩ => ⟨S64x1, .f32⟩
  | .hbm, ⟨7, _⟩ => ⟨S8192x1, .f32⟩
  | .hbm, ⟨8, _⟩ => ⟨S64x1, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S_, .f32⟩
  | .hbm, ⟨16, _⟩ => ⟨S8192x8192, .f32⟩
  | .hbm, ⟨17, _⟩ => ⟨S8192x8192, .i1⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .i32⟩
  | .hbm, ⟨23, _⟩ => ⟨S8192x8192, .i32⟩
  | .hbm, ⟨24, _⟩ => ⟨S8192x8192, .i1⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192x1, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x8192, .f32⟩
  | .hbm, ⟨40, _⟩ => ⟨S8192x8192, .f32⟩
  | .hbm, ⟨41, _⟩ => ⟨S8192x64, .f32⟩
  | .hbm, ⟨42, _⟩ => ⟨S_, .f32⟩
  | .hbm, ⟨43, _⟩ => ⟨S8192x64, .f32⟩
  | .hbm, ⟨44, _⟩ => ⟨S8192x64, .i1⟩
  | .hbm, ⟨45, _⟩ => ⟨S_, .f32⟩
  | .hbm, ⟨46, _⟩ => ⟨S8192x64, .f32⟩
  | .hbm, ⟨47, _⟩ => ⟨S8192x64, .i1⟩
  | .hbm, ⟨48, _⟩ => ⟨S_, .f32⟩
  | .hbm, ⟨49, _⟩ => ⟨S_, .f32⟩
  | .hbm, ⟨50, _⟩ => ⟨S8192x64, .f32⟩
  | .hbm, ⟨51, _⟩ => ⟨S8192x64, .f32⟩
  | .hbm, ⟨52, _⟩ => ⟨S8192x64, .f32⟩
  | .hbm, ⟨53, _⟩ => ⟨S_, .f32⟩
  | .hbm, ⟨54, _⟩ => ⟨S8192x64, .f32⟩
  | .hbm, ⟨55, _⟩ => ⟨S8192x64, .f32⟩
  | .hbm, ⟨56, _⟩ => ⟨S8192x64, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call2_cst : Ref sig .tc := ⟨.hbm, 42, rfl⟩
abbrev main_call2_v0 : Ref sig .tc := ⟨.hbm, 43, rfl⟩
abbrev main_call2_v1 : Ref sig .tc := ⟨.hbm, 44, rfl⟩
abbrev main_call2_cst_0 : Ref sig .tc := ⟨.hbm, 45, rfl⟩
abbrev main_call2_v2 : Ref sig .tc := ⟨.hbm, 46, rfl⟩
abbrev main_call2_v3 : Ref sig .tc := ⟨.hbm, 47, rfl⟩
abbrev main_call2_cst_1 : Ref sig .tc := ⟨.hbm, 48, rfl⟩
abbrev main_call2_call0_v0 : Ref sig .tc := ⟨.hbm, 49, rfl⟩
abbrev main_call2_call0_v1 : Ref sig .tc := ⟨.hbm, 50, rfl⟩
abbrev main_call2_v4 : Ref sig .tc := ⟨.hbm, 51, rfl⟩
abbrev main_call2_v5 : Ref sig .tc := ⟨.hbm, 52, rfl⟩
abbrev main_call2_cst_2 : Ref sig .tc := ⟨.hbm, 53, rfl⟩
abbrev main_call2_v6 : Ref sig .tc := ⟨.hbm, 54, rfl⟩
abbrev main_call2_v7 : Ref sig .tc := ⟨.hbm, 55, rfl⟩
abbrev main_v25 : Ref sig .tc := ⟨.hbm, 56, rfl⟩

abbrev nD : Nat := 1
abbrev τ : Topo := Topo.v7x

variable {F : FTy → Type} [FloatOps F]

class Facts₀ : Prop where
  slices_S128x1_S64x1_0_0 : S128x1.Slices ![0, 0] S64x1
  slices_S128x1_S64x1_64_0 : S128x1.Slices ![64, 0] S64x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x64 : S_.BroadcastsInDim S8192x64 (![] : Fin 0 → Fin S8192x64.rank)
  dot_S8192x512_S512x64_S8192x64_1_0_0_1_n_n_wf : DotDims.WF S8192x512 S512x64 S8192x64 [1] [0] [0] [1] [] []
  dot_S8192x64_S64x1_S8192x1_1_0_0_1_n_n_wf : DotDims.WF S8192x64 S64x1 S8192x1 [1] [0] [0] [1] [] []
  dot_S8192x8192_S8192x64_S8192x64_1_0_0_1_n_n_wf : DotDims.WF S8192x8192 S8192x64 S8192x64 [1] [0] [0] [1] [] []

variable [Facts₀]

def dot_S8192x512_S512x64_S8192x64_1_0_0_1_n_n : DotDims S8192x512 S512x64 S8192x64 where
  lhsContracting := [1]
  rhsContracting := [0]
  lhsNonContracting := [0]
  rhsNonContracting := [1]
  lhsBatch := []
  rhsBatch := []
  wf := dot_S8192x512_S512x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.Spec.lean ====
/-
  Dense graph attention over 8192 nodes, as mathematics: what both programs compute, written once over
  plain index types and the extended reals.

  With P = h · W (the projected features, 8192 × 64), the two halves of the attention vector give each node a
  "source" score s i = Σ_k P i k · a k and a "target" score t j = Σ_k P j k · a (64 + k). The logit of the
  ordered pair (i, j) is the leaky rectifier of s i + t j where the adjacency word is positive and a fixed
  finite fill elsewhere. Row i's weights are exp (logit − row maximum), and the node's new features are the
  weighted mean of the P j, passed through the exponential linear unit.

  The two programs differ only in how the mean is taken. One multiplies the unnormalised weights into the
  features extended by a column of ones (so that column 64 of the product IS the row's weight sum) and divides
  afterwards; the other divides each weight by the row's weight sum first. Over the reals, with a nonzero sum,
  (Σ_j w j · x j) / (Σ_j w j) = Σ_j (w j / Σ w) · x j. On the extended reals that law needs every factor
  finite, which the finiteness of the inputs gives (the last section).
-/
import Idealize.ShloMosaic.PureOps.Ideal
import Idealize.ShloMosaic.Lib.ValueIdx

noncomputable section

open scoped BigOperators

namespace Cert.Gat

open Idealize.ShloMosaic Idealize.ShloMosaic.ValueIdx

/-! ## Matrices and rank-2 arrays -/

/-- A rank-2 array read as a matrix. -/
def toMat {a b : ℕ} {α : Type} (x : (⟨2, ![a, b]⟩ : Shape).Idx → α) : Fin a → Fin b → α := fun i j => x (ix2 i j)

/-- A matrix as a rank-2 array. -/
def ofMat {a b : ℕ} {α : Type} (g : Fin a → Fin b → α) : (⟨2, ![a, b]⟩ : Shape).Idx → α := fun i => g (i 0) (i 1)

theorem ofMat_ix2 {a b : ℕ} {α : Type} (g : Fin a → Fin b → α) (i : Fin a) (j : Fin b) : ofMat g (ix2 i j) = g i j := rfl

theorem toMat_ofMat {a b : ℕ} {α : Type} (g : Fin a → Fin b → α) : toMat (ofMat g) = g := rfl

theorem ofMat_toMat {a b : ℕ} {α : Type} (x : (⟨2, ![a, b]⟩ : Shape).Idx → α) : ofMat (toMat x) = x := by
  funext i; exact congrArg x (eq_ix2 i).symm

/-! ## The projection and the two score halves -/

/-- P = h · W. -/
def proj (h : Fin 8192 → Fin 512 → EReal) (W : Fin 512 → Fin 64 → EReal) : Fin 8192 → Fin 64 → EReal :=
  fun i k => ∑ d : Fin 512, h i d * W d k

/-- One half of the attention vector applied to every node's projected features. -/
def half (P : Fin 8192 → Fin 64 → EReal) (a : Fin 64 → EReal) : Fin 8192 → EReal :=
  fun i => ∑ k : Fin 64, P i k * a k

/-- The first 64 entries of the attention vector (a column of 128). -/
def aSrc (a : Fin 128 → Fin 1 → EReal) : Fin 64 → EReal := fun k => a ⟨k.val, by omega⟩ 0

/-- Its last 64 entries. -/
def aDst (a : Fin 128 → Fin 1 → EReal) : Fin 64 → EReal := fun k => a ⟨64 + k.val, by omega⟩ 0

/-- The projected features extended to 128 columns: the features, then a column of ones, then zeros. -/
def aug (P : Fin 8192 → Fin 64 → EReal) : Fin 8192 → Fin 128 → EReal :=
  fun j c => if h : c.val < 64 then P j ⟨c.val, h⟩
    else if c.val = 64 then Ideal.ofBits .bf16 0x3F80#16 else Ideal.ofBits .bf16 0x0000#16

/-! ## One pair's logit -/

/-- The rectifier's negative slope, as the word both programs carry. -/
def slope : EReal := Ideal.ofBits .f32 0x3E4CCCCD#32

/-- The finite fill a masked pair gets, as the word both programs carry. -/
def fill : EReal := Ideal.ofBits .f32 0xCF000000#32

/-- The leaky rectifier: x where x ≥ 0, slope · x elsewhere. -/
def leaky (x : EReal) : EReal :=
  Scalar.select (Ideal.cmp .oge x (Ideal.ofBits .f32 0x00000000#32)) x (slope * x)

/-- The logit of a pair with source score s, target score t and adjacency word e. -/
def logit (s t : EReal) (e : BitVec 32) : EReal :=
  Scalar.select (IntOp.cmpi .sgt e 0#32) (leaky (s + t)) fill

/-- A row's maximum: the fold of max from −∞. -/
def rowMax (f : Fin 8192 → EReal) : EReal :=
  (Finset.univ : Finset (Fin 8192)).fold max (Ideal.ofBits .f32 0xFF800000#32) f

/-! ## The exponential linear unit, in the two spellings -/

/-- x where x > 0, exp x − 1 elsewhere. -/
def eluDirect (x : EReal) : EReal :=
  Scalar.select (Ideal.cmp .ogt x (Ideal.ofBits .f32 0x00000000#32)) x (Ideal.exp x - Ideal.ofBits .f32 0x3F800000#32)

/-- x where x > 0, elsewhere 1 · (exp y − 1) with y the input clipped to 0 where it is positive. -/
def eluClipped (x : EReal) : EReal :=
  Scalar.select (Ideal.cmp .ogt x (Ideal.ofBits .f32 0x00000000#32)) x
    (Ideal.ofBits .f32 0x3F800000#32 *
      (Ideal.exp (Scalar.select (Ideal.cmp .ogt x (Ideal.ofBits .f32 0x00000000#32)) (Ideal.ofBits .f32 0x00000000#32) x) - 1))

/-! ## One row of the output, in the two arrangements -/

/-- Divide after: the unnormalised weights of a row of logits times the extended features; column k over column 64. -/
def rowFused (f : Fin 8192 → EReal) (A : Fin 8192 → Fin 128 → EReal) (k : Fin 64) : EReal :=
  eluDirect (Ideal.div
    (∑ j : Fin 8192, Ideal.exp (f j - rowMax f) * A j ⟨k.val, by omega⟩)
    (∑ j : Fin 8192, Ideal.exp (f j - rowMax f) * A j ⟨64, by omega⟩))

/-- Divide first: each weight over the row's weight sum (taken from 0), then times the features. The row maximum is
    once more compared with −∞ before it is subtracted. -/
def rowNormalised (f : Fin 8192 → EReal) (P : Fin 8192 → Fin 64 → EReal) (k : Fin 64) : EReal :=
  eluClipped (∑ j : Fin 8192,
    Ideal.div
      (Ideal.exp (f j - max (Ideal.ofBits .f32 0xFF800000#32) (rowMax f)))
      (Ideal.ofBits .f32 0x00000000#32
        + ∑ j' : Fin 8192, Ideal.exp (f j' - max (Ideal.ofBits .f32 0xFF800000#32) (rowMax f)))
    * P j k)

/-! ## The whole output, in the two arrangements -/

/-- Row i's logits from the two score vectors and the adjacency. -/
def logits (s t : Fin 8192 → EReal) (adj : Fin 8192 → Fin 8192 → BitVec 32) (i : Fin 8192) : Fin 8192 → EReal :=
  fun j => logit (s i) (t j) (adj i j)

/-- The fused arrangement of the whole layer. -/
def outFused (h : Fin 8192 → Fin 512 → EReal) (adj : Fin 8192 → Fin 8192 → BitVec 32) (W : Fin 512 → Fin 64 → EReal)
    (a : Fin 128 → Fin 1 → EReal) : Fin 8192 → Fin 64 → EReal :=
  fun i k => rowFused (logits (half (proj h W) (aSrc a)) (half (proj h W) (aDst a)) adj i) (aug (proj h W)) k

/-- The normalised arrangement of the whole layer. -/
def outNormalised (h : Fin 8192 → Fin 512 → EReal) (adj : Fin 8192 → Fin 8192 → BitVec 32) (W : Fin 512 → Fin 64 → EReal)
    (a : Fin 128 → Fin 1 → EReal) : Fin 8192 → Fin 64 → EReal :=
  fun i k => rowNormalised (logits (half (proj h W) (aSrc a)) (half (proj h W) (aDst a)) adj i) (proj h W) k

/-- An extended real that is a real number. -/
def IsReal (x : EReal) : Prop := x ≠ ⊤ ∧ x ≠ ⊥

end Cert.Gat

end
-- ==== Proof.LibColumns.lean ====
/-
  A column kept by a row reduction: the two layout operations a sum over the last axis with the axis kept
  (`keepdims`) goes through before it meets the array it was taken from again, read at an index.

  An `[a]` vector of row values is cast to an `[a, 1]` column (row-major order is unchanged: entry `i` of the
  vector is entry `(i, 0)` of the column), and the column is broadcast along the second axis to `[a, b]`
  (every entry of row `p` reads the column at `p`). Both over any element type and any extents.
-/
import Idealize.ShloMosaic.Lib.Pipeline.Value
import Idealize.ShloMosaic.Lib.ValueIdx

namespace Cert.Columns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Columns
-- ==== Proof.LinearBlock.lean ====
/-
  The projection kernel's body at one element of its block. A block is 1024 rows of h against the whole of W and
  the two halves of the attention vector laid out as rows.
-/
import proofs.«416510_j8246337208821_3_alg».proof.Proof.Gen.KernelIdeal.Skeleton
import proofs.«416510_j8246337208821_3_alg».proof.Proof.Spec
import proofs.«416510_j8246337208821_3_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.LinearBlock

open Idealize.ShloMosaic Idealize.ShloMosaic.ValueIdx Cert.KernelIdeal Cert.KernelIdeal.Gen Cert.Gat

/-! ## The operand indices of the one-axis contraction

The product contracts axis 1 of the left operand with axis 0 of the right one. At output entry (r, k) and contraction
coordinate d the left operand is read at (r, d) and the right one at (d, k): on its free axis each operand takes the
output's coordinate, on its contracted axis the contraction coordinate. One statement per operand and axis. -/

/-- Left operand, free axis: the output's row. -/
private theorem lhs_axis0 (j : S1024x64.Idx) (q : dot_S1024x512_S512x64_S1024x64_1_0_0_1_n_n.contr.Idx) :
    (dot_S1024x512_S512x64_S1024x64_1_0_0_1_n_n.lhsIdx j q (0 : Fin 2)).val = (j (0 : Fin 2)).val := by
  simp [DotDims.lhsIdx, dot_S1024x512_S512x64_S1024x64_1_0_0_1_n_n]
  rfl

/-- Left operand, contracted axis: the contraction coordinate. -/
private theorem lhs_axis1 (j : S1024x64.Idx) (q : dot_S1024x512_S512x64_S1024x64_1_0_0_1_n_n.contr.Idx) :
    (dot_S1024x512_S512x64_S1024x64_1_0_0_1_n_n.lhsIdx j q (1 : Fin 2)).val = (q ⟨0, by decide⟩).val :=
  dot_S1024x512_S512x64_S1024x64_1_0_0_1_n_n.lhsIdx_val_of_single (cl := (1 : Fin 2)) rfl j q

/-- Right operand, contracted axis: the contraction coordinate. -/
private theorem rhs_axis0 (j : S1024x64.Idx) (q : dot_S1024x512_S512x64_S1024x64_1_0_0_1_n_n.contr.Idx) :
    (dot_S1024x512_S512x64_S1024x64_1_0_0_1_n_n.rhsIdx j q (0 : Fin 2)).val = (q ⟨0, by decide⟩).val :=
  dot_S1024x512_S512x64_S1024x64_1_0_0_1_n_n.rhsIdx_val_of_single (cr := (0 : Fin 2)) rfl j q

/-- Right operand, free axis: the output's column. -/
private theorem rhs_axis1 (j : S1024x64.Idx) (q : dot_S1024x512_S512x64_S1024x64_1_0_0_1_n_n.contr.Idx) :
    (dot_S1024x512_S512x64_S1024x64_1_0_0_1_n_n.rhsIdx j q (1 : Fin 2)).val = (j (1 : Fin 2)).val := by
  simp [DotDims.rhsIdx, dot_S1024x512_S512x64_S1024x64_1_0_0_1_n_n]
  rfl

/-- The block of P: entry (r, k) is the product of row r of the h block with column k of W. -/
theorem proj_block (x0 : FVec Ideal S1024x512 .f32) (x1 : FVec Ideal S512x64 .f32) (r : Fin 1024) (k : Fin 64) :
    k0_pay1 (F := Ideal) x0 x1 (ix2 r k) = ∑ d : Fin 512, x0 (ix2 r d) * x1 (ix2 d k) := by
  unfold k0_pay1
  -- accumulated into zero, the product at (r, k) is the sum over the contraction index of the operands' products
  refine (Ideal.matmul_constant_zero_apply dot_S1024x512_S512x64_S1024x64_1_0_0_1_n_n none _ _ (ix2 r k)).trans ?_
  -- the contraction index has a single axis of extent 512: sum over its coordinate d instead
  rw [← Equiv.sum_comp (contrEquiv1 dot_S1024x512_S512x64_S1024x64_1_0_0_1_n_n 512 rfl rfl).symm]
  refine Finset.sum_congr rfl fun d _ => ?_
  have hq := contrEquiv1_symm_val dot_S1024x512_S512x64_S1024x64_1_0_0_1_n_n 512 rfl rfl d
  have hl : dot_S1024x512_S512x64_S1024x64_1_0_0_1_n_n.lhsIdx (ix2 r k) ((contrEquiv1 dot_S1024x512_S512x64_S1024x64_1_0_0_1_n_n 512 rfl rfl).symm d) = ix2 r d := by
    funext ax; apply Fin.ext
    match ax with
    | ⟨0, _⟩ => exact lhs_axis0 _ _
    | ⟨1, _⟩ => exact (lhs_axis1 _ _).trans hq
  have hr : dot_S1024x512_S512x64_S1024x64_1_0_0_1_n_n.rhsIdx (ix2 r k) ((contrEquiv1 dot_S1024x512_S512x64_S1024x64_1_0_0_1_n_n 512 rfl rfl).symm d) = ix2 d k := by
    funext ax; apply Fin.ext
    match ax with
    | ⟨0, _⟩ => exact (rhs_axis0 _ _).trans hq
    | ⟨1, _⟩ => exact rhs_axis1 _ _
  -- each operand's change of format is the identity on extended reals; the operands are read at (r, d) and (d, k)
  rw [truncf_apply, truncf_apply, hl, hr]

/-- The block of the extended features: P in the first 64 columns, then the ones column, then zeros. -/
theorem aug_block (x0 : FVec Ideal S1024x512 .f32) (x1 : FVec Ideal S512x64 .f32) (r : Fin 1024) (c : Fin 128) :
    k0_pay2 (F := Ideal) x0 x1 (ix2 r c)
      = if h : c.val < 64 then ∑ d : Fin 512, x0 (ix2 r d) * x1 (ix2 d (⟨c.val, h⟩ : Fin 64))
        else if c.val = 64 then Ideal.ofBits .bf16 0x3F80#16 else Ideal.ofBits .bf16 0x0000#16 := by
  unfold k0_pay2
  have hc := c.isLt
  by_cases h : c.val < 64
  · -- columns 0 … 63 lie in the first piece, at the same column: the product block, its format change the identity
    rw [dif_pos h]
    refine (concatenate_apply_piece _ _ _ (ix2 r c) 0 (by show (0 : ℕ) < 3; omega) S1024x64 _ rfl rfl 0 rfl
      (ix2 r (⟨c.val, h⟩ : Fin 64)) ?_ ?_).trans ?_
    · intro b
      match b with
      | ⟨0, _⟩ => exact fun _ => rfl
      | ⟨1, _⟩ => exact fun hne => absurd rfl hne
    · exact Nat.zero_add _
    · rw [truncf_apply, proj_block]
  · rw [dif_neg h]
    by_cases h64 : c.val = 64
    · -- column 64 is the whole of the second piece, after the 64 columns of the first: the constant one
      rw [if_pos h64]
      refine (concatenate_apply_piece _ _ _ (ix2 r c) 1 (by show (1 : ℕ) < 3; omega) S1024x1 _ rfl rfl 64 rfl
        (ix2 r (0 : Fin 1)) ?_ ?_).trans ?_
      · intro b
        match b with
        | ⟨0, _⟩ => exact fun _ => rfl
        | ⟨1, _⟩ => exact fun hne => absurd rfl hne
      · exact h64.symm
      · rfl
    · -- columns 65 … 127 lie in the third piece, after 64 + 1 columns, at column c − 65: the constant zero
      rw [if_neg h64]
      refine (concatenate_apply_piece _ _ _ (ix2 r c) 2 (by show (2 : ℕ) < 3; omega) S1024x63 _ rfl rfl 65 rfl
        (ix2 r (⟨c.val - 65, by omega⟩ : Fin 63)) ?_ ?_).trans ?_
      · intro b
        match b with
        | ⟨0, _⟩ => exact fun _ => rfl
        | ⟨1, _⟩ => exact fun hne => absurd rfl hne
      · show 65 + (c.val - 65) = c.val
        omega
      · rfl

/-! ## A block against one row, summed along the lanes

Both score columns have the same form: a 1024 × 64 block is multiplied entrywise by a single row of 64 laid along
every one of the 1024 rows, each row of the products is summed over its 64 entries, and the 1024 sums are stood up
as a column. Entry (r, 0) of that column is Σ_k block (r, k) · row (0, k). -/

private theorem score_column (P : FVec Ideal S1024x64 .f32) (a : FVec Ideal S1x64 .f32)
    (hc : S1x64.ShapeCasts S1x64) (hb : S1x64.Broadcasts S1024x64) (hr : S1024x64.Reduces [1] S1024)
    (hs : S1024.ShapeCasts S1024x1) (r : Fin 1024) (u : Fin 1) :
    shapeCast S1024x1
        (multiReduction (F := Ideal) .add [1] S1024 (mulf P (broadcastTo S1024x64 (shapeCast S1x64 a hc) hb))
          0x00000000#32 hr (.inl rfl) rfl) hs (ix2 r u)
      = ∑ k : Fin 64, P (ix2 r k) * a (ix2 (0 : Fin 1) k) := by
  -- the column at (r, u) is the vector of row sums at r
  refine (Cert.Columns.shapeCast_a_a1_apply _ hs r u).trans ?_
  -- the row sum at r is the sum over the 64 lane coordinates, the lane coordinate inserted on axis 1
  refine (Ideal.multiReduction_add_single _ _ hr _ _ (ix1 r)).trans ?_
  show ∑ k : Fin 64, mulf P (broadcastTo S1024x64 (shapeCast S1x64 a hc) hb) (hr.lift (ix1 r) k) = _
  refine Finset.sum_congr rfl fun k _ => ?_
  have hl : hr.lift (ix1 r) k = ix2 r k := by
    funext ax
    match ax with
    | ⟨0, _⟩ => rfl
    | ⟨1, _⟩ => rfl
  -- the product at (r, k); the row laid along every row reads its entry k; the cast to the same shape changes nothing
  rw [hl, mulf_apply, broadcastTo_1b_ab_apply, shapeCast_self]

/-- The block of source scores: row r of P against the first half of the attention vector. -/
theorem src_block (x0 : FVec Ideal S1024x512 .f32) (x1 : FVec Ideal S512x64 .f32) (x2 : FVec Ideal S1x64 .f32)
    (r : Fin 1024) (u : Fin 1) :
    k0_pay3 (F := Ideal) x0 x1 x2 (ix2 r u)
      = ∑ k : Fin 64, (∑ d : Fin 512, x0 (ix2 r d) * x1 (ix2 d k)) * x2 (ix2 (0 : Fin 1) k) := by
  unfold k0_pay3
  refine (score_column (k0_pay1 (F := Ideal) x0 x1) x2 _ _ _ _ r u).trans ?_
  exact Finset.sum_congr rfl fun k _ => by rw [proj_block]

/-- The block of target scores: the same against the second half. -/
theorem dst_block (x0 : FVec Ideal S1024x512 .f32) (x1 : FVec Ideal S512x64 .f32) (x3 : FVec Ideal S1x64 .f32)
    (r : Fin 1024) (u : Fin 1) :
    k0_pay4 (F := Ideal) x0 x1 x3 (ix2 r u)
      = ∑ k : Fin 64, (∑ d : Fin 512, x0 (ix2 r d) * x1 (ix2 d k)) * x3 (ix2 (0 : Fin 1) k) := by
  unfold k0_pay4
  refine (score_column (k0_pay1 (F := Ideal) x0 x1) x3 _ _ _ _ r u).trans ?_
  exact Finset.sum_congr rfl fun k _ => by rw [proj_block]

end Cert.KernelIdeal.LinearBlock

end
-- ==== Proof.LinearArrays.lean ====
/-
  The projection kernel's three output arrays after its eight grid points, each as one function of the arrays the
  region finds: point t writes rows 1024·t … 1024·t + 1023, and the eight blocks tile the 8192 rows.
-/
import proofs.«416510_j8246337208821_3_alg».proof.Proof.Gen.KernelIdeal.Frame
import proofs.«416510_j8246337208821_3_alg».proof.Proof.LinearBlock

set_option maxRecDepth 16384

noncomputable section

open scoped BigOperators

namespace Cert.KernelIdeal.LinearArrays

open Idealize.ShloMosaic Idealize.ShloMosaic.TcCoe Idealize.ShloMosaic.ValueIdx Idealize.SL.Sem
open Cert.KernelIdeal Cert.KernelIdeal.Gen Cert.Gat

variable (V : (c : Dev nD) → (b : Ref sig .tc) → Buf (Elt Ideal) ((c : Thread nD τ).loc b))

/-- P of the arrays the region finds at h's and W's buffers. -/
abbrev projOf (c : Dev nD) : Fin 8192 → Fin 64 → EReal :=
  proj (toMat (V c main_arg0 : S8192x512.Idx → EReal)) (toMat (V c main_arg2 : S512x64.Idx → EReal))

/-! ## The blocks a grid point reads and writes, as rows of the arrays

Point t reads rows 1024·t … 1024·t + 1023 of h, all of W and both attention rows, and writes the same 1024 rows of
each output. On every axis a block's element sits in its array at (block index) · (block size) + (its coordinate
inside the block); the block indices are (t, 0) for h and the three outputs and (0, 0) for the whole-array windows. -/

/-- The zero offset of a rank-2 rectangle, in the spelling the stores and loads carry. -/
private theorem hz : (![0, 0] : Fin 2 → Nat) = fun _ => 0 :=
  funext fun a => match a with
    | ⟨0, _⟩ => rfl
    | ⟨1, _⟩ => rfl

/-- The block index of each of the seven windows at each of the eight points. -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row r of the block of h at point t is row i = 1024·t + r of h. -/
private theorem h_block (c : Dev nD) (t : Fin cfg0.N) (r : Fin 1024) (d : Fin 512) (i : Fin 8192)
    (hi : i.val = 1024 * t.val + r.val) :
    (iblk0 (F := Ideal) V c 0 t : FVec Ideal S1024x512 .f32) (ix2 r d)
      = (V c main_arg0 : S8192x512.Idx → EReal) (ix2 i d) := by
  obtain ⟨e0, e1, -⟩ := idx_facts t
  unfold iblk0
  show V c main_arg0 (((cfg0.win 0).blk t).view.emb (ix2 r d)) = V c main_arg0 (ix2 i d)
  refine congrArg (V c main_arg0) (funext fun a => Fin.ext ?_)
  match a with
  | ⟨0, _⟩ => show win0_0.index t (0 : Fin 2) * 1024 + 1 * r.val = i.val; omega
  | ⟨1, _⟩ => show win0_0.index t (1 : Fin 2) * 512 + 1 * d.val = d.val; omega

/-- The block of W at any point is W. -/
private theorem w_block (c : Dev nD) (t : Fin cfg0.N) (d : Fin 512) (k : Fin 64) :
    (iblk0 (F := Ideal) V c 1 t : FVec Ideal S512x64 .f32) (ix2 d k)
      = (V c main_arg2 : S512x64.Idx → EReal) (ix2 d k) := by
  obtain ⟨-, -, e0, e1, -⟩ := idx_facts t
  unfold iblk0
  show V c main_arg2 (((cfg0.win 1).blk t).view.emb (ix2 d k)) = V c main_arg2 (ix2 d k)
  refine congrArg (V c main_arg2) (funext fun a => Fin.ext ?_)
  match a with
  | ⟨0, _⟩ => show win0_1.index t (0 : Fin 2) * 512 + 1 * d.val = d.val; omega
  | ⟨1, _⟩ => show win0_1.index t (1 : Fin 2) * 64 + 1 * k.val = k.val; omega

/-- The block of the first attention row at any point is that row. -/
private theorem src_row_block (c : Dev nD) (t : Fin cfg0.N) (k : Fin 64) :
    (iblk0 (F := Ideal) V c 2 t : FVec Ideal S1x64 .f32) (ix2 (0 : Fin 1) k)
      = (V c main_v1 : S1x64.Idx → EReal) (ix2 (0 : Fin 1) k) := by
  obtain ⟨-, -, -, -, e0, e1, -⟩ := idx_facts t
  unfold iblk0
  show V c main_v1 (((cfg0.win 2).blk t).view.emb (ix2 (0 : Fin 1) k)) = V c main_v1 (ix2 (0 : Fin 1) k)
  refine congrArg (V c main_v1) (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 64 + 1 * k.val = k.val; omega

/-- The block of the second attention row at any point is that row. -/
private theorem dst_row_block (c : Dev nD) (t : Fin cfg0.N) (k : Fin 64) :
    (iblk0 (F := Ideal) V c 3 t : FVec Ideal S1x64 .f32) (ix2 (0 : Fin 1) k)
      = (V c main_v3 : S1x64.Idx → EReal) (ix2 (0 : Fin 1) k) := by
  obtain ⟨-, -, -, -, -, -, e0, e1, -⟩ := idx_facts t
  unfold iblk0
  show V c main_v3 (((cfg0.win 3).blk t).view.emb (ix2 (0 : Fin 1) k)) = V c main_v3 (ix2 (0 : Fin 1) k)
  refine congrArg (V c main_v3) (funext fun a => Fin.ext ?_)
  match a with
  | ⟨0, _⟩ => show win0_3.index t (0 : Fin 2) * 1 + 1 * (0 : Fin 1).val = (0 : Fin 1).val; omega
  | ⟨1, _⟩ => show win0_3.index t (1 : Fin 2) * 64 + 1 * k.val = k.val; omega

/-! ## One element of a block's result, from rows of the arrays

Stated over any blocks x0, x1, x2 whose rows are known rows of arrays A, B, a: the sums over d (512 terms) and over
k (64 terms) are then the sums that define P = A · B and its half scores, term by term. -/

/-- If row r of x0 is row i of A and x1 is B, then Σ_d x0 r d · x1 d k is entry (i, k) of A · B. -/
private theorem proj_of_rows (x0 : FVec Ideal S1024x512 .f32) (x1 : FVec Ideal S512x64 .f32)
    (A : S8192x512.Idx → EReal) (B : S512x64.Idx → EReal) (r : Fin 1024) (i : Fin 8192) (k : Fin 64)
    (h0 : ∀ d, x0 (ix2 r d) = A (ix2 i d)) (h1 : ∀ d k, x1 (ix2 d k) = B (ix2 d k)) :
    (∑ d : Fin 512, x0 (ix2 r d) * x1 (ix2 d k)) = proj (toMat A) (toMat B) i k :=
  Finset.sum_congr rfl fun d _ => by rw [h0 d, h1 d k]; rfl

/-- The extended-features element (r, q) of a block is element (i, q) of the extension of A · B: the same three
    cases on the column q (below 64, equal to 64, above). -/
private theorem aug_of_rows (x0 : FVec Ideal S1024x512 .f32) (x1 : FVec Ideal S512x64 .f32)
    (A : S8192x512.Idx → EReal) (B : S512x64.Idx → EReal) (r : Fin 1024) (i : Fin 8192) (q : Fin 128)
    (h0 : ∀ d, x0 (ix2 r d) = A (ix2 i d)) (h1 : ∀ d k, x1 (ix2 d k) = B (ix2 d k)) :
    k0_pay2 (F := Ideal) x0 x1 (ix2 r q) = aug (proj (toMat A) (toMat B)) i q := by
  rw [LinearBlock.aug_block]
  unfold aug
  by_cases h : q.val < 64
  · rw [dif_pos h, dif_pos h]; exact proj_of_rows x0 x1 A B r i ⟨q.val, h⟩ h0 h1
  · rw [dif_neg h, dif_neg h]

/-- A score element r of a block (any body k0 that computes Σ_k (Σ_d x0 r d · x1 d k) · x2 0 k there) is the half
    score of row i of A · B against the row a. -/
private theorem half_of_rows
    (k0 : FVec Ideal S1024x512 .f32 → FVec Ideal S512x64 .f32 → FVec Ideal S1x64 .f32 → FVec Ideal S1024x1 .f32)
    (x0 : FVec Ideal S1024x512 .f32) (x1 : FVec Ideal S512x64 .f32) (x2 : FVec Ideal S1x64 .f32)
    (A : S8192x512.Idx → EReal) (B : S512x64.Idx → EReal) (a : S1x64.Idx → EReal)
    (r : Fin 1024) (i : Fin 8192) (u : Fin 1)
    (hk : k0 x0 x1 x2 (ix2 r u) = ∑ k : Fin 64, (∑ d : Fin 512, x0 (ix2 r d) * x1 (ix2 d k)) * x2 (ix2 (0 : Fin 1) k))
    (h0 : ∀ d, x0 (ix2 r d) = A (ix2 i d)) (h1 : ∀ d k, x1 (ix2 d k) = B (ix2 d k))
    (h2 : ∀ k, x2 (ix2 (0 : Fin 1) k) = a (ix2 (0 : Fin 1) k)) :
    k0 x0 x1 x2 (ix2 r u) = half (proj (toMat A) (toMat B)) (fun k => a (ix2 (0 : Fin 1) k)) i := by
  rw [hk]
  unfold half
  exact Finset.sum_congr rfl fun k _ => by rw [proj_of_rows x0 x1 A B r i k h0 h1, h2 k]

/-! ## The extended features: what each point writes back, and the eight blocks together -/

/-- An index of the 8192 × 128 array is in point t's block iff on each axis it lies in the block's range. -/
private theorem mem_blk4 (t : Fin cfg0.N) (i : S8192x128.Idx) :
    i ∈ ((cfg0.win 4).blk t).view.set ↔ ∀ a : Fin 2, win0_4.index t a * S1024x128.size a ≤ (i a).val
      ∧ (i a).val < win0_4.index t a * S1024x128.size a + S1024x128.size a := by
  show i ∈ ((View.whole main_v4_0).slice (win0_4.rect t)).set ↔ _
  rw [View.set_slice_whole, Rect.mem_set_unit]
  exact Iff.rfl

/-- What point t writes back is block t of the extension of P: element (r, q) of the block is element
    (1024·t + r, q) of the array. -/
private theorem flushed4_eq (c : Dev nD) (t : Fin cfg0.N) :
    (dat0 (F := Ideal) V c).flushed 4 t
      = ((cfg0.win 4).blk t).view.read (Elt Ideal) (ofMat (aug (projOf V c)) : S8192x128.Idx → EReal) := by
  show (cfg0.win 4).cut (grid0.coords t) ((dat0 (F := Ideal) V c).after 4 t) = _
  rw [after0_4]
  unfold out0_4
  rw [View.canon_unit_zero hz]
  simp only [View.ld_unit_zero (S := S1024x512) hz, View.ld_unit_zero (S := S512x64) hz]
  obtain ⟨-, -, -, -, -, -, -, -, e0, e1, -⟩ := idx_facts t
  funext j
  have hj : j = ix2 (j 0) (j 1) := eq_ix2 (n0 := 1024) (n1 := 128) j
  have hr : ((((cfg0.win 4).blk t).view.emb j) 0 : Fin 8192).val = 1024 * t.val + (j 0 : Fin 1024).val := by
    show win0_4.index t (0 : Fin 2) * 1024 + 1 * (j 0).val = _; omega
  have hq : ((((cfg0.win 4).blk t).view.emb j) 1 : Fin 128) = (j 1 : Fin 128) :=
    Fin.ext (by show win0_4.index t (1 : Fin 2) * 128 + 1 * (j 1).val = (j 1).val; omega)
  refine (congrArg (k0_pay2 (F := Ideal) (iblk0 (F := Ideal) V c 0 t) (iblk0 (F := Ideal) V c 1 t)) hj).trans ?_
  refine (aug_of_rows _ _ (V c main_arg0) (V c main_arg2) (j 0) ((((cfg0.win 4).blk t).view.emb j) 0) (j 1)
    (fun d => h_block V c t (j 0) d _ hr) (fun d k => w_block V c t d k)).trans ?_
  exact congrArg (aug (projOf V c) ((((cfg0.win 4).blk t).view.emb j) 0)) hq.symm

/-- The extended-features array. -/
theorem aug_array (c : Dev nD) :
    ((dat0 (F := Ideal) V c).arrAt 4 cfg0.N : S8192x128.Idx → EReal) = ofMat (aug (projOf V c)) := by
  -- every point writes its block of the one array; row i lies in the block of point i / 1024
  refine (dat0 (F := Ideal) V c).arrAt_eq_of_cover 4 (ofMat (aug (projOf V c)) : S8192x128.Idx → EReal)
    (fun t _ => flushed4_eq V c t) fun i => ?_
  have hi0 : (i 0).val < 8192 := (i 0).isLt
  have hi1 : (i 1).val < 128 := (i 1).isLt
  have hN : grid0.N = 8 := N_0
  let t : Fin cfg0.N := ⟨(i 0).val / 1024, by show _ < grid0.N; omega⟩
  obtain ⟨-, -, -, -, -, -, -, -, e0, e1, -⟩ := idx_facts t
  have ht : t.val = (i 0).val / 1024 := rfl
  refine ⟨t, flush0_4 t, ?_⟩
  rw [mem_blk4]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 128 ≤ (i 1).val ∧ (i 1).val < win0_4.index t (1 : Fin 2) * 128 + 128; omega

/-! ## The source scores: what each point writes back, and the eight blocks together -/

/-- An index of the source-score column is in point t's block iff on each axis it lies in the block's range. -/
private theorem mem_blk5 (t : Fin cfg0.N) (i : S8192x1.Idx) :
    i ∈ ((cfg0.win 5).blk t).view.set ↔ ∀ a : Fin 2, win0_5.index t a * S1024x1.size a ≤ (i a).val
      ∧ (i a).val < win0_5.index t a * S1024x1.size a + S1024x1.size a := by
  show i ∈ ((View.whole main_v4_1).slice (win0_5.rect t)).set ↔ _
  rw [View.set_slice_whole, Rect.mem_set_unit]
  exact Iff.rfl

/-- What point t writes back is block t of the column i ↦ Σ_k P i k · (first attention row) k: element r of the
    block is element 1024·t + r of the column. -/
private theorem flushed5_eq (c : Dev nD) (t : Fin cfg0.N) :
    (dat0 (F := Ideal) V c).flushed 5 t
      = ((cfg0.win 5).blk t).view.read (Elt Ideal)
          (ofMat (fun i (_ : Fin 1) =>
              half (projOf V c) (fun k => (V c main_v1 : S1x64.Idx → EReal) (ix2 (0 : Fin 1) k)) i)
            : S8192x1.Idx → EReal) := by
  show (cfg0.win 5).cut (grid0.coords t) ((dat0 (F := Ideal) V c).after 5 t) = _
  rw [after0_5]
  unfold out0_5
  rw [View.canon_unit_zero hz]
  simp only [View.ld_unit_zero (S := S1024x512) hz, View.ld_unit_zero (S := S512x64) hz,
    View.ld_unit_zero (S := S1x64) hz]
  obtain ⟨-, -, -, -, -, -, -, -, -, -, e0, e1, -⟩ := idx_facts t
  funext j
  have hj : j = ix2 (j 0) (j 1) := eq_ix2 (n0 := 1024) (n1 := 1) j
  have hr : ((((cfg0.win 5).blk t).view.emb j) 0 : Fin 8192).val = 1024 * t.val + (j 0 : Fin 1024).val := by
    show win0_5.index t (0 : Fin 2) * 1024 + 1 * (j 0).val = _; omega
  refine (congrArg (k0_pay3 (F := Ideal) (iblk0 (F := Ideal) V c 0 t) (iblk0 (F := Ideal) V c 1 t)
    (iblk0 (F := Ideal) V c 2 t)) hj).trans ?_
  exact half_of_rows (k0_pay3 (F := Ideal)) _ _ _ (V c main_arg0) (V c main_arg2) (V c main_v1) (j 0)
    ((((cfg0.win 5).blk t).view.emb j) 0) (j 1) (LinearBlock.src_block _ _ _ (j 0) (j 1))
    (fun d => h_block V c t (j 0) d _ hr) (fun d k => w_block V c t d k) (fun k => src_row_block V c t k)

/-- The source-score column. -/
theorem src_array (c : Dev nD) :
    ((dat0 (F := Ideal) V c).arrAt 5 cfg0.N : S8192x1.Idx → EReal)
      = ofMat fun i (_ : Fin 1) => half (projOf V c) (fun k => (V c main_v1 : S1x64.Idx → EReal) (ix2 (0 : Fin 1) k)) i := by
  -- every point writes its block of the one column; row i lies in the block of point i / 1024
  refine (dat0 (F := Ideal) V c).arrAt_eq_of_cover 5
    (ofMat (fun i (_ : Fin 1) =>
        half (projOf V c) (fun k => (V c main_v1 : S1x64.Idx → EReal) (ix2 (0 : Fin 1) k)) i)
      : S8192x1.Idx → EReal)
    (fun t _ => flushed5_eq V c t) fun i => ?_
  have hi0 : (i 0).val < 8192 := (i 0).isLt
  have hi1 : (i 1).val < 1 := (i 1).isLt
  have hN : grid0.N = 8 := N_0
  let t : Fin cfg0.N := ⟨(i 0).val / 1024, by show _ < grid0.N; omega⟩
  obtain ⟨-, -, -, -, -, -, -, -, -, -, e0, e1, -⟩ := idx_facts t
  have ht : t.val = (i 0).val / 1024 := rfl
  refine ⟨t, flush0_5 t, ?_⟩
  rw [mem_blk5]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1 ≤ (i 1).val ∧ (i 1).val < win0_5.index t (1 : Fin 2) * 1 + 1; omega

/-! ## The target scores: what each point writes back, and the eight blocks together -/

/-- An index of the target-score column is in point t's block iff on each axis it lies in the block's range. -/
private theorem mem_blk6 (t : Fin cfg0.N) (i : S8192x1.Idx) :
    i ∈ ((cfg0.win 6).blk t).view.set ↔ ∀ a : Fin 2, win0_6.index t a * S1024x1.size a ≤ (i a).val
      ∧ (i a).val < win0_6.index t a * S1024x1.size a + S1024x1.size a := by
  show i ∈ ((View.whole main_v4_2).slice (win0_6.rect t)).set ↔ _
  rw [View.set_slice_whole, Rect.mem_set_unit]
  exact Iff.rfl

/-- What point t writes back is block t of the column i ↦ Σ_k P i k · (second attention row) k: element r of the
    block is element 1024·t + r of the column. -/
private theorem flushed6_eq (c : Dev nD) (t : Fin cfg0.N) :
    (dat0 (F := Ideal) V c).flushed 6 t
      = ((cfg0.win 6).blk t).view.read (Elt Ideal)
          (ofMat (fun i (_ : Fin 1) =>
              half (projOf V c) (fun k => (V c main_v3 : S1x64.Idx → EReal) (ix2 (0 : Fin 1) k)) i)
            : S8192x1.Idx → EReal) := by
  show (cfg0.win 6).cut (grid0.coords t) ((dat0 (F := Ideal) V c).after 6 t) = _
  rw [after0_6]
  unfold out0_6
  rw [View.canon_unit_zero hz]
  simp only [View.ld_unit_zero (S := S1024x512) hz, View.ld_unit_zero (S := S512x64) hz,
    View.ld_unit_zero (S := S1x64) hz]
  obtain ⟨-, -, -, -, -, -, -, -, -, -, -, -, e0, e1⟩ := idx_facts t
  funext j
  have hj : j = ix2 (j 0) (j 1) := eq_ix2 (n0 := 1024) (n1 := 1) j
  have hr : ((((cfg0.win 6).blk t).view.emb j) 0 : Fin 8192).val = 1024 * t.val + (j 0 : Fin 1024).val := by
    show win0_6.index t (0 : Fin 2) * 1024 + 1 * (j 0).val = _; omega
  refine (congrArg (k0_pay4 (F := Ideal) (iblk0 (F := Ideal) V c 0 t) (iblk0 (F := Ideal) V c 1 t)
    (iblk0 (F := Ideal) V c 3 t)) hj).trans ?_
  exact half_of_rows (k0_pay4 (F := Ideal)) _ _ _ (V c main_arg0) (V c main_arg2) (V c main_v3) (j 0)
    ((((cfg0.win 6).blk t).view.emb j) 0) (j 1) (LinearBlock.dst_block _ _ _ (j 0) (j 1))
    (fun d => h_block V c t (j 0) d _ hr) (fun d k => w_block V c t d k) (fun k => dst_row_block V c t k)

/-- The target-score column. -/
theorem dst_array (c : Dev nD) :
    ((dat0 (F := Ideal) V c).arrAt 6 cfg0.N : S8192x1.Idx → EReal)
      = ofMat fun i (_ : Fin 1) => half (projOf V c) (fun k => (V c main_v3 : S1x64.Idx → EReal) (ix2 (0 : Fin 1) k)) i := by
  -- every point writes its block of the one column; row i lies in the block of point i / 1024
  refine (dat0 (F := Ideal) V c).arrAt_eq_of_cover 6
    (ofMat (fun i (_ : Fin 1) =>
        half (projOf V c) (fun k => (V c main_v3 : S1x64.Idx → EReal) (ix2 (0 : Fin 1) k)) i)
      : S8192x1.Idx → EReal)
    (fun t _ => flushed6_eq V c t) fun i => ?_
  have hi0 : (i 0).val < 8192 := (i 0).isLt
  have hi1 : (i 1).val < 1 := (i 1).isLt
  have hN : grid0.N = 8 := N_0
  let t : Fin cfg0.N := ⟨(i 0).val / 1024, by show _ < grid0.N; omega⟩
  obtain ⟨-, -, -, -, -, -, -, -, -, -, -, -, e0, e1⟩ := idx_facts t
  have ht : t.val = (i 0).val / 1024 := rfl
  refine ⟨t, flush0_6 t, ?_⟩
  rw [mem_blk6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1 ≤ (i 1).val ∧ (i 1).val < win0_6.index t (1 : Fin 2) * 1 + 1; omega

end Cert.KernelIdeal.LinearArrays

end
-- ==== Proof.AttnBlock.lean ====
/-
  The attention kernel's body at one element of its block: 128 rows of the adjacency against every node's target
  score and extended features.

  Read at entry (r, k), the body is a chain of five facts. The masked logit at (r, j) is the logit of the pair: the
  row's source score plus column j's target score through the leaky rectifier, or the fill where the adjacency word
  is not positive. The row maximum is the fold of max over the 8192 entries of row r. The weight at (r, j) is the
  exponential of the logit less that maximum. Entry (r, c) of the product with the extended features is the sum over
  the 8192 nodes j of weight (r, j) times feature (j, c). Last, entry (r, k) of the product over entry (r, 64) goes
  through the exponential linear unit.
-/
import proofs.«416510_j8246337208821_3_alg».proof.Proof.Gen.KernelIdeal.Skeleton
import proofs.«416510_j8246337208821_3_alg».proof.Proof.Spec
import proofs.«416510_j8246337208821_3_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.AttnBlock

open Idealize.ShloMosaic Idealize.ShloMosaic.ValueIdx Cert.KernelIdeal Cert.KernelIdeal.Gen Cert.Gat

/-! ## The masked logits

The source score of row r, kept as a column, is spread along the row; the target scores, kept as a row, are spread
down the rows; their sum goes through the leaky rectifier and, where the adjacency word is not positive, is replaced
by the fill. -/

/-- A row of length 8192 spread down 128 rows reads, at (p, c), the row at c. -/
private theorem rowBroadcast_apply (v : FVec Ideal S1x8192 .f32) (p : Fin 128) (c : Fin 8192) :
    broadcastTo S128x8192 v broadcasts_S1x8192_S128x8192 (ix2 p c) = v (ix2 (0 : Fin 1) c) := by
  refine broadcastTo_apply v broadcasts_S1x8192_S128x8192 (ix2 p c) (ix2 (0 : Fin 1) c) fun ax => ?_
  match ax with
  | ⟨0, _⟩ => rfl
  | ⟨1, _⟩ => rfl

/-- The block of score sums: source score of the row plus target score of the column. -/
private def scores (x0 : FVec Ideal S128x1 .f32) (x1 : FVec Ideal S1x8192 .f32) : FVec Ideal S128x8192 .f32 :=
  addf (broadcastTo S128x8192 (shapeCast S128x1 x0 shapeCasts_S128x1_S128x1) broadcasts_S128x1_S128x8192)
    (broadcastTo S128x8192 (shapeCast S1x8192 x1 shapeCasts_S1x8192_S1x8192) broadcasts_S1x8192_S128x8192)

private theorem scores_apply (x0 : FVec Ideal S128x1 .f32) (x1 : FVec Ideal S1x8192 .f32) (r : Fin 128) (j : Fin 8192) :
    scores x0 x1 (ix2 r j) = x0 (ix2 r (0 : Fin 1)) + x1 (ix2 (0 : Fin 1) j) := by
  unfold scores
  rw [addf_apply, shapeCast_self, shapeCast_self, Cert.Columns.broadcastTo_a1_ab_apply, rowBroadcast_apply]

/-- The block of masked logits, from a block of score sums and the adjacency block. -/
private def masked (s : FVec Ideal S128x8192 .f32) (x3 : IVec S128x8192 32) : FVec Ideal S128x8192 .f32 :=
  select (cmpi .sgt x3 (broadcast S128x8192 0#32))
    (select (cmpf .oge s (broadcast S128x8192 (Scalar.ofBits (F := Ideal) .f32 0x00000000#32))) s
      (mulf (broadcast S128x8192 (Scalar.ofBits (F := Ideal) .f32 0x3E4CCCCD#32)) s))
    (broadcast S128x8192 (Scalar.ofBits (F := Ideal) .f32 0xCF000000#32))

/-- Entry (r, j) of the masked logits is the logit of the pair (r, j). -/
private theorem masked_apply (x0 : FVec Ideal S128x1 .f32) (x1 : FVec Ideal S1x8192 .f32) (x3 : IVec S128x8192 32)
    (r : Fin 128) (j : Fin 8192) :
    masked (scores x0 x1) x3 (ix2 r j) = logit (x0 (ix2 r (0 : Fin 1))) (x1 (ix2 (0 : Fin 1) j)) (x3 (ix2 r j)) := by
  have h : masked (scores x0 x1) x3 (ix2 r j)
      = Scalar.select (IntOp.cmpi .sgt (x3 (ix2 r j)) 0#32) (leaky (scores x0 x1 (ix2 r j))) Cert.Gat.fill := by
    unfold masked Cert.Gat.leaky Cert.Gat.slope Cert.Gat.fill
    rfl
  rw [h, scores_apply]
  rfl

/-! ## The weights

Each row's maximum is taken over its 8192 entries, kept as a column, spread back along the row and subtracted; the
weight is the exponential of the difference. -/

/-- The reduced index (r) with the coordinate j put back on the second axis is (r, j). -/
private theorem lift_row (r : Fin 128) (j : Fin 8192) :
    reduces_S128x8192_S128.lift (a := (1 : Fin S128x8192.rank)) (ix1 r) j = ix2 r j := by
  funext ax
  match ax with
  | ⟨0, _⟩ => exact Fin.ext rfl
  | ⟨1, _⟩ => exact Fin.ext rfl

/-- The reduction over the second axis at r is the fold of max over row r. -/
private theorem rowMax_apply (v : FVec Ideal S128x8192 .f32) (r : Fin 128) :
    multiReduction .maximumf [1] S128 v 0xFF800000#32 reduces_S128x8192_S128 (.inl rfl) rfl (ix1 r)
      = rowMax fun j => v (ix2 r j) := by
  refine (Ideal.multiReduction_maximumf_single (a := (1 : Fin S128x8192.rank)) v 0xFF800000#32
    reduces_S128x8192_S128 (.inl rfl) rfl (ix1 r)).trans ?_
  unfold rowMax
  refine congrArg (fun g => (Finset.univ : Finset (Fin 8192)).fold max (Ideal.ofBits .f32 0xFF800000#32) g) ?_
  funext j
  exact congrArg v (lift_row r j)

/-- The block of weights of a block of logits. -/
private def weights (v : FVec Ideal S128x8192 .f32) : FVec Ideal S128x8192 .f32 :=
  exp (subf v (broadcastTo S128x8192 (shapeCast S128x1
    (multiReduction .maximumf [1] S128 v 0xFF800000#32 reduces_S128x8192_S128 (.inl rfl) rfl)
    shapeCasts_S128_S128x1) broadcasts_S128x1_S128x8192))

/-- Entry (r, j) of the weights: the exponential of the entry less its row's maximum. -/
private theorem weights_apply (v : FVec Ideal S128x8192 .f32) (r : Fin 128) (j : Fin 8192) :
    weights v (ix2 r j) = Ideal.exp (v (ix2 r j) - rowMax fun j' => v (ix2 r j')) := by
  show Ideal.exp (v (ix2 r j) - broadcastTo S128x8192 (shapeCast S128x1
        (multiReduction .maximumf [1] S128 v 0xFF800000#32 reduces_S128x8192_S128 (.inl rfl) rfl)
        shapeCasts_S128_S128x1) broadcasts_S128x1_S128x8192 (ix2 r j)) = _
  rw [Cert.Columns.broadcastTo_a1_ab_apply, Cert.Columns.shapeCast_a_a1_apply, rowMax_apply]

/-! ## The product

The product of the weights with the extended features: which entries of the two operands meet at contraction
    position q of output entry i. The left operand keeps the output's row and takes q as its column; the right
    operand takes q as its row and keeps the output's column. -/

private theorem lhs_axis0 (i : S128x128.Idx) (q : dot_S128x8192_S8192x128_S128x128_1_0_0_1_n_n.contr.Idx) :
    (dot_S128x8192_S8192x128_S128x128_1_0_0_1_n_n.lhsIdx i q 0).val = (i 0).val := by
  unfold DotDims.lhsIdx
  rw [dif_neg (show ¬(0 : Fin S128x8192.rank) ∈ dot_S128x8192_S8192x128_S128x128_1_0_0_1_n_n.lhsBatch by decide),
    dif_pos (show (0 : Fin S128x8192.rank) ∈ dot_S128x8192_S8192x128_S128x128_1_0_0_1_n_n.lhsNonContracting by decide)]
  rfl

private theorem lhs_axis1 (i : S128x128.Idx) (q : dot_S128x8192_S8192x128_S128x128_1_0_0_1_n_n.contr.Idx) :
    (dot_S128x8192_S8192x128_S128x128_1_0_0_1_n_n.lhsIdx i q 1).val = (q ⟨0, by decide⟩).val :=
  dot_S128x8192_S8192x128_S128x128_1_0_0_1_n_n.lhsIdx_val_of_single rfl i q

private theorem rhs_axis0 (i : S128x128.Idx) (q : dot_S128x8192_S8192x128_S128x128_1_0_0_1_n_n.contr.Idx) :
    (dot_S128x8192_S8192x128_S128x128_1_0_0_1_n_n.rhsIdx i q 0).val = (q ⟨0, by decide⟩).val :=
  dot_S128x8192_S8192x128_S128x128_1_0_0_1_n_n.rhsIdx_val_of_single rfl i q

private theorem rhs_axis1 (i : S128x128.Idx) (q : dot_S128x8192_S8192x128_S128x128_1_0_0_1_n_n.contr.Idx) :
    (dot_S128x8192_S8192x128_S128x128_1_0_0_1_n_n.rhsIdx i q 1).val = (i 1).val := by
  unfold DotDims.rhsIdx
  rw [dif_neg (show ¬(1 : Fin S8192x128.rank) ∈ dot_S128x8192_S8192x128_S128x128_1_0_0_1_n_n.rhsBatch by decide),
    dif_pos (show (1 : Fin S8192x128.rank) ∈ dot_S128x8192_S8192x128_S128x128_1_0_0_1_n_n.rhsNonContracting by decide)]
  rfl

/-- Entry (r, c) of the product is the sum over the 8192 nodes of weight (r, j) times feature (j, c). -/
private theorem product_apply (w : FVec Ideal S128x8192 .f32) (x2 : FVec Ideal S8192x128 .bf16) (r c : Fin 128) :
    matmul dot_S128x8192_S8192x128_S128x128_1_0_0_1_n_n none (truncf .bf16 w bitsLt_bf16_f32)
        (shapeCast S8192x128 x2 shapeCasts_S8192x128_S8192x128) (constant S128x128 .f32 0x00000000#32) (ix2 r c)
      = ∑ j : Fin 8192, w (ix2 r j) * x2 (ix2 j c) := by
  rw [shapeCast_self]
  refine (Ideal.matmul_constant_zero_apply dot_S128x8192_S8192x128_S128x128_1_0_0_1_n_n none _ _ (ix2 r c)).trans ?_
  rw [← Equiv.sum_comp (contrEquiv1 dot_S128x8192_S8192x128_S128x128_1_0_0_1_n_n 8192 rfl rfl).symm]
  refine Finset.sum_congr rfl fun j _ => ?_
  have hj := contrEquiv1_symm_val dot_S128x8192_S8192x128_S128x128_1_0_0_1_n_n 8192 rfl rfl j
  have el : dot_S128x8192_S8192x128_S128x128_1_0_0_1_n_n.lhsIdx (ix2 r c) ((contrEquiv1 dot_S128x8192_S8192x128_S128x128_1_0_0_1_n_n 8192 rfl rfl).symm j) = ix2 r j :=
    funext fun a => Fin.ext (by
      match a with
      | ⟨0, _⟩ => exact lhs_axis0 _ _
      | ⟨1, _⟩ => exact (lhs_axis1 _ _).trans hj)
  have er : dot_S128x8192_S8192x128_S128x128_1_0_0_1_n_n.rhsIdx (ix2 r c) ((contrEquiv1 dot_S128x8192_S8192x128_S128x128_1_0_0_1_n_n 8192 rfl rfl).symm j) = ix2 j c :=
    funext fun a => Fin.ext (by
      match a with
      | ⟨0, _⟩ => exact (rhs_axis0 _ _).trans hj
      | ⟨1, _⟩ => exact rhs_axis1 _ _)
  rw [el, er]
  rfl

/-! ## The division and the exponential linear unit -/

/-- Columns 0..63 of a 128 x 128 block over its column 64, at (r, k): entry (r, k) over entry (r, 64). -/
private theorem quotient_apply (m : FVec Ideal S128x128 .f32) (r : Fin 128) (k : Fin 64) :
    divf (extractStridedSlice S128x64 ![0, 0] m slices_S128x128_o0_0_S128x64)
        (broadcastTo S128x64 (extractStridedSlice S128x1 ![0, 64] m slices_S128x128_o0_64_S128x1)
          broadcasts_S128x1_S128x64) (ix2 r k)
      = Ideal.div (m (ix2 r (⟨k.val, by omega⟩ : Fin 128))) (m (ix2 r (⟨64, by omega⟩ : Fin 128))) := by
  rw [divf_apply, Cert.Columns.broadcastTo_a1_ab_apply]
  refine congrArg₂ Ideal.div ?_ ?_
  · refine extractStridedSlice_apply _ m _ (ix2 r k) (ix2 r (⟨k.val, by omega⟩ : Fin 128)) fun a => ?_
    match a with
    | ⟨0, _⟩ => exact (Nat.zero_add r.val).symm
    | ⟨1, _⟩ => exact (Nat.zero_add k.val).symm
  · refine extractStridedSlice_apply _ m _ (ix2 r (0 : Fin 1)) (ix2 r (⟨64, by omega⟩ : Fin 128)) fun a => ?_
    match a with
    | ⟨0, _⟩ => exact (Nat.zero_add r.val).symm
    | ⟨1, _⟩ => rfl

/-- The select between a value and its exponential less one, on "the value is positive", at an index. -/
private theorem elu_apply (y : FVec Ideal S128x64 .f32) (i : S128x64.Idx) :
    select (cmpf .ogt y (broadcast S128x64 (Scalar.ofBits (F := Ideal) .f32 0x00000000#32))) y
      (subf (exp y) (broadcast S128x64 (Scalar.ofBits (F := Ideal) .f32 0x3F800000#32))) i = eluDirect (y i) := by
  unfold eluDirect
  rfl

/-- Entry (r, k) of the output block is the fused row computation of row r's logits (its source score against every
    target score, under row r of the adjacency) and the extended features. -/
theorem attn_block (x0 : FVec Ideal S128x1 .f32) (x1 : FVec Ideal S1x8192 .f32) (x3 : IVec S128x8192 32)
    (x2 : FVec Ideal S8192x128 .bf16) (r : Fin 128) (k : Fin 64) :
    k1_pay1 (F := Ideal) x0 x1 x3 x2 (ix2 r k)
      = rowFused (fun j => logit (x0 (ix2 r (0 : Fin 1))) (x1 (ix2 (0 : Fin 1) j)) (x3 (ix2 r j))) (toMat x2) k := by
  have hw : ∀ j : Fin 8192, weights (masked (scores x0 x1) x3) (ix2 r j)
      = Ideal.exp (logit (x0 (ix2 r (0 : Fin 1))) (x1 (ix2 (0 : Fin 1) j)) (x3 (ix2 r j))
          - rowMax fun j' => logit (x0 (ix2 r (0 : Fin 1))) (x1 (ix2 (0 : Fin 1) j')) (x3 (ix2 r j'))) := fun j => by
    rw [weights_apply, masked_apply]
    exact congrArg (fun g => Ideal.exp (_ - rowMax g)) (funext fun j' => masked_apply x0 x1 x3 r j')
  have hp : ∀ c : Fin 128,
      matmul dot_S128x8192_S8192x128_S128x128_1_0_0_1_n_n none (truncf .bf16 (weights (masked (scores x0 x1) x3)) bitsLt_bf16_f32)
        (shapeCast S8192x128 x2 shapeCasts_S8192x128_S8192x128) (constant S128x128 .f32 0x00000000#32) (ix2 r c)
      = ∑ j : Fin 8192, Ideal.exp (logit (x0 (ix2 r (0 : Fin 1))) (x1 (ix2 (0 : Fin 1) j)) (x3 (ix2 r j))
          - rowMax fun j' => logit (x0 (ix2 r (0 : Fin 1))) (x1 (ix2 (0 : Fin 1) j')) (x3 (ix2 r j'))) * toMat x2 j c :=
    fun c => (product_apply _ x2 r c).trans (Finset.sum_congr rfl fun j _ => by rw [hw j]; rfl)
  unfold k1_pay1
  refine (elu_apply _ (ix2 r k)).trans ?_
  unfold rowFused
  refine congrArg eluDirect ?_
  refine (quotient_apply _ r k).trans ?_
  exact congrArg₂ Ideal.div (hp _) (hp _)

end Cert.KernelIdeal.AttnBlock

end
-- ==== Proof.AttnArray.lean ====
/-
  The attention kernel's output array after its 64 grid points, as one function of the arrays the region finds:
  point t writes rows 128·t … 128·t + 127, and the 64 blocks tile the 8192 rows.
-/
import proofs.«416510_j8246337208821_3_alg».proof.Proof.Gen.KernelIdeal.Frame
import proofs.«416510_j8246337208821_3_alg».proof.Proof.AttnBlock
import Idealize.ShloMosaic.Lib.Pipeline.Value

set_option maxRecDepth 16384

noncomputable section

open scoped BigOperators

namespace Cert.KernelIdeal.AttnArray

open Idealize.ShloMosaic Idealize.ShloMosaic.TcCoe Idealize.ShloMosaic.ValueIdx Idealize.SL.Sem
open Cert.KernelIdeal Cert.KernelIdeal.Gen Cert.Gat

variable (V : (c : Dev nD) → (b : Ref sig .tc) → Buf (Elt Ideal) ((c : Thread nD τ).loc b))

/-- The offsets of a whole-buffer access, both zero. -/
private theorem zero_offsets : (![0, 0] : Fin 2 → Nat) = fun _ => 0 := funext fun a => by fin_cases a <;> rfl

/-- Where each window's block sits at grid point t, decided once over the 64 points: the source scores, the adjacency
    and the result move down by one block of 128 rows per point and never sideways; the target scores and the extended
    features are taken whole at every point. -/
private theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Entry y of the source-score block at point t is entry (128·t + y₀, y₁) of the source-score column: an element of a
    block sits, on each axis, at block index × block extent + its coordinate inside the block. -/
private theorem srcScore_block_apply (c : Dev nD) (t : Fin cfg1.N) (y : S128x1.Idx) (i : S8192x1.Idx)
    (h0 : (i 0).val = t.val * 128 + (y 0).val) (h1 : (i 1).val = (y 1).val) :
    (iblk1 (F := Ideal) V c 0 t : S128x1.Idx → EReal) y = (V c main_v4_1 : S8192x1.Idx → EReal) i := by
  obtain ⟨e0, e1, -⟩ := block_indices t
  unfold iblk1
  show V c main_v4_1 (((cfg1.win 0).blk t).view.emb y) = V c main_v4_1 i
  refine congrArg (V c main_v4_1) ?_
  funext a
  apply Fin.ext
  match a with
  | ⟨0, _⟩ => show win1_0.index t (0 : Fin 2) * 128 + 1 * (y 0).val = (i 0).val; rw [e0, h0]; omega
  | ⟨1, _⟩ => show win1_0.index t (1 : Fin 2) * 1 + 1 * (y 1).val = (i 1).val; rw [e1, h1]; omega

/-- The target-score block is the whole target-score row at every point (block index 0 on both axes). -/
private theorem dstScore_block_eq (c : Dev nD) (t : Fin cfg1.N) :
    (iblk1 (F := Ideal) V c 1 t : S1x8192.Idx → EReal) = (V c main_v5 : S1x8192.Idx → EReal) := by
  obtain ⟨-, -, e0, e1, -⟩ := block_indices t
  funext y
  unfold iblk1
  show V c main_v5 (((cfg1.win 1).blk t).view.emb y) = V c main_v5 y
  refine congrArg (V c main_v5) ?_
  funext a
  apply Fin.ext
  match a with
  | ⟨0, _⟩ => show win1_1.index t (0 : Fin 2) * 1 + 1 * (y 0).val = (y 0).val; rw [e0]; omega
  | ⟨1, _⟩ => show win1_1.index t (1 : Fin 2) * 8192 + 1 * (y 1).val = (y 1).val; rw [e1]; omega

/-- The extended-feature block is the whole extended-feature array at every point. -/
private theorem features_block_eq (c : Dev nD) (t : Fin cfg1.N) :
    (iblk1 (F := Ideal) V c 2 t : S8192x128.Idx → EReal) = (V c main_v4_0 : S8192x128.Idx → EReal) := by
  obtain ⟨-, -, -, -, e0, e1, -⟩ := block_indices t
  funext y
  unfold iblk1
  show V c main_v4_0 (((cfg1.win 2).blk t).view.emb y) = V c main_v4_0 y
  refine congrArg (V c main_v4_0) ?_
  funext a
  apply Fin.ext
  match a with
  | ⟨0, _⟩ => show win1_2.index t (0 : Fin 2) * 8192 + 1 * (y 0).val = (y 0).val; rw [e0]; omega
  | ⟨1, _⟩ => show win1_2.index t (1 : Fin 2) * 128 + 1 * (y 1).val = (y 1).val; rw [e1]; omega

/-- Entry y of the adjacency block at point t is entry (128·t + y₀, y₁) of the adjacency: 128 full rows per point. -/
private theorem adjacency_block_apply (c : Dev nD) (t : Fin cfg1.N) (y : S128x8192.Idx) (i : S8192x8192.Idx)
    (h0 : (i 0).val = t.val * 128 + (y 0).val) (h1 : (i 1).val = (y 1).val) :
    (iblk1 (F := Ideal) V c 3 t : S128x8192.Idx → BitVec 32) y = (V c main_arg1 : S8192x8192.Idx → BitVec 32) i := by
  obtain ⟨-, -, -, -, -, -, e0, e1, -⟩ := block_indices t
  unfold iblk1
  show V c main_arg1 (((cfg1.win 3).blk t).view.emb y) = V c main_arg1 i
  refine congrArg (V c main_arg1) ?_
  funext a
  apply Fin.ext
  match a with
  | ⟨0, _⟩ => show win1_3.index t (0 : Fin 2) * 128 + 1 * (y 0).val = (i 0).val; rw [e0, h0]; omega
  | ⟨1, _⟩ => show win1_3.index t (1 : Fin 2) * 8192 + 1 * (y 1).val = (i 1).val; rw [e1, h1]; omega

/-- The fused row computation depends on its row of logits and on the feature matrix only through their values. -/
private theorem rowFused_congr {f g : Fin 8192 → EReal} {A B : Fin 8192 → Fin 128 → EReal} (hf : f = g) (hA : A = B)
    (k : Fin 64) : rowFused f A k = rowFused g B k := by rw [hf, hA]

/-- The whole result as one function of the arrays the region finds: row i, column k is the fused row computation of
    row i's logits against the extended features. -/
private abbrev result (c : Dev nD) : S8192x64.Idx → EReal :=
  ofMat fun i k => rowFused
    (fun j => logit ((V c main_v4_1 : S8192x1.Idx → EReal) (ix2 i (0 : Fin 1)))
      ((V c main_v5 : S1x8192.Idx → EReal) (ix2 (0 : Fin 1) j))
      ((V c main_arg1 : S8192x8192.Idx → BitVec 32) (ix2 i j)))
    (toMat (V c main_v4_0 : S8192x128.Idx → EReal)) k

/-- What point t writes back is rows 128·t … 128·t + 127 of the result: entry (r, k) of the block the body leaves is
    the fused row computation over the point's own blocks, and each of those blocks is the matching piece of its array —
    row 128·t + r of the source scores and of the adjacency, all of the target scores and of the extended features —
    which is exactly what entry (128·t + r, k) of the result is made from. -/
private theorem point_writes_rows (c : Dev nD) (t : Fin cfg1.N) :
    (dat1 (F := Ideal) V c).flushed 4 t = ((cfg1.win 4).blk t).view.read (Elt Ideal) (result V c) := by
  show (cfg1.win 4).cut (grid1.coords t) ((dat1 V c).after 4 t) = _
  rw [after1_4]
  unfold out1_4
  rw [View.canon_unit_zero zero_offsets]
  simp only [View.ld_unit_zero (S := S128x1) zero_offsets, View.ld_unit_zero (S := S1x8192) zero_offsets,
    View.ld_unit_zero (S := S128x8192) zero_offsets, View.ld_unit_zero (S := S8192x128) zero_offsets]
  funext j
  obtain ⟨r, k, rfl⟩ : ∃ (r : Fin 128) (k : Fin 64), j = ix2 r k := ⟨j 0, j 1, eq_ix2 j⟩
  show k1_pay1 (F := Ideal) (iblk1 V c 0 t) (iblk1 V c 1 t) (iblk1 V c 3 t) (iblk1 V c 2 t) (ix2 r k)
      = result V c (((cfg1.win 4).blk t).view.emb (ix2 r k))
  refine (AttnBlock.attn_block _ _ _ _ r k).trans ?_
  obtain ⟨-, -, -, -, -, -, -, -, e0, e1⟩ := block_indices t
  have hN : cfg1.N = 64 := N_1
  have ht : t.val < 64 := hN ▸ t.isLt
  -- entry (r, k) of the point's block is entry (128·t + r, k) of the array
  have hi : ((cfg1.win 4).blk t).view.emb (ix2 r k)
      = ix2 (⟨t.val * 128 + r.val, by have := r.isLt; omega⟩ : Fin 8192) k := by
    funext a
    apply Fin.ext
    match a with
    | ⟨0, _⟩ => show win1_4.index t (0 : Fin 2) * 128 + 1 * r.val = t.val * 128 + r.val; rw [e0]; omega
    | ⟨1, _⟩ => show win1_4.index t (1 : Fin 2) * 64 + 1 * k.val = k.val; rw [e1]; omega
  rw [hi]
  show _ = rowFused _ _ k
  -- the two rows of logits agree entry by entry, and the two feature matrices are one
  refine rowFused_congr (funext fun j => ?_) (congrArg toMat (features_block_eq V c t)) k
  rw [srcScore_block_apply V c t (ix2 r (0 : Fin 1))
      (ix2 (⟨t.val * 128 + r.val, by have := r.isLt; omega⟩ : Fin 8192) (0 : Fin 1)) rfl rfl,
    congrFun (dstScore_block_eq V c t) (ix2 (0 : Fin 1) j),
    adjacency_block_apply V c t (ix2 r j)
      (ix2 (⟨t.val * 128 + r.val, by have := r.isLt; omega⟩ : Fin 8192) j) rfl rfl]

/-- An index of the result array lies in point t's block exactly when, on each axis, its coordinate lies in the block's
    range: from block index × extent, for one extent. -/
private theorem mem_rows_block (t : Fin cfg1.N) (i : S8192x64.Idx) :
    i ∈ ((cfg1.win 4).blk t).view.set ↔ ∀ a : Fin 2, win1_4.index t a * S128x64.size a ≤ (i a).val
      ∧ (i a).val < win1_4.index t a * S128x64.size a + S128x64.size a := by
  show i ∈ ((View.whole main_v6).slice (win1_4.rect t)).set ↔ _
  rw [View.set_slice_whole, Rect.mem_set_unit]
  exact Iff.rfl

/-- The 64 blocks tile the 8192 rows: row i lies in the block of point i / 128, since
    (i / 128)·128 ≤ i < (i / 128)·128 + 128, and every column is below the block's 64. -/
private theorem rows_covered (i : S8192x64.Idx) :
    ∃ t : Fin cfg1.N, (cfg1.win 4).flush t = true ∧ i ∈ ((cfg1.win 4).blk t).view.set := by
  have hi0 : (i 0).val < 8192 := (i 0).isLt
  have hi1 : (i 1).val < 64 := (i 1).isLt
  have hN : cfg1.N = 64 := N_1
  have hq : (i 0).val / 128 < cfg1.N := by rw [hN]; omega
  obtain ⟨-, -, -, -, -, -, -, -, e0, e1⟩ := block_indices ⟨(i 0).val / 128, hq⟩
  refine ⟨⟨(i 0).val / 128, hq⟩, flush1_4 _, ?_⟩
  rw [mem_rows_block]
  intro a
  match a with
  | ⟨0, _⟩ =>
    show win1_4.index ⟨(i 0).val / 128, hq⟩ (0 : Fin 2) * 128 ≤ (i 0).val
      ∧ (i 0).val < win1_4.index ⟨(i 0).val / 128, hq⟩ (0 : Fin 2) * 128 + 128
    rw [e0]
    show (i 0).val / 128 * 128 ≤ (i 0).val ∧ (i 0).val < (i 0).val / 128 * 128 + 128
    omega
  | ⟨1, _⟩ =>
    show win1_4.index ⟨(i 0).val / 128, hq⟩ (1 : Fin 2) * 64 ≤ (i 1).val
      ∧ (i 1).val < win1_4.index ⟨(i 0).val / 128, hq⟩ (1 : Fin 2) * 64 + 64
    rw [e1]
    omega

/-- Row i of the result is the fused row computation of row i's logits (the source score at i against the target-score
    row, under row i of the adjacency) and the extended features, all as the region finds them. -/
theorem out_array (c : Dev nD) :
    ((dat1 (F := Ideal) V c).arrAt 4 cfg1.N : S8192x64.Idx → EReal)
      = ofMat fun i k => rowFused
          (fun j => logit ((V c main_v4_1 : S8192x1.Idx → EReal) (ix2 i (0 : Fin 1)))
            ((V c main_v5 : S1x8192.Idx → EReal) (ix2 (0 : Fin 1) j))
            ((V c main_arg1 : S8192x8192.Idx → BitVec 32) (ix2 i j)))
          (toMat (V c main_v4_0 : S8192x128.Idx → EReal)) k := by
  -- every point writes its rows of the result, and the points' row blocks tile the array
  exact (dat1 (F := Ideal) V c).arrAt_eq_of_cover 4 (result V c) (fun t _ => point_writes_rows V c t) rows_covered

end Cert.KernelIdeal.AttnArray

end
-- ==== Proof.KernelValue.lean ====
/-
  The kernel program's result as one function of its arguments: the last boundary's contents at the result buffer is
  the attention kernel's output array, whose inputs are the projection kernel's three arrays (the target-score column
  relaid as a row) and the adjacency; the projection kernel's inputs are h, W and the two halves of the attention
  vector relaid as rows.
-/
import proofs.«416510_j8246337208821_3_alg».proof.Proof.Gen.KernelIdeal.Frame
import proofs.«416510_j8246337208821_3_alg».proof.Proof.LinearArrays
import proofs.«416510_j8246337208821_3_alg».proof.Proof.AttnArray
import proofs.«416510_j8246337208821_3_alg».proof.Proof.Spec
import Idealize.ShloMosaic.Lib.StableHlo.Run
import Idealize.ShloMosaic.Lib.Pipeline.Value

set_option maxRecDepth 16384

noncomputable section

open scoped BigOperators

namespace Cert.KernelIdeal.Value

open Idealize.ShloMosaic Idealize.ShloMosaic.TcCoe Idealize.ShloMosaic.ValueIdx Idealize.SL.Sem
open Cert.KernelIdeal Cert.KernelIdeal.Gen Cert.Gat

variable (m : (ℓ : Loc nD τ sig) → Buf (Elt Ideal) ℓ) (ρ : Dev nD → PrngReg)

/-! ## Before the projection kernel: the two halves of the attention vector as rows -/

/-- A buffer the first host stretch does not write is as launched. -/
theorem V1_of_not_written (c : Dev nD) (b : Ref sig .tc)
    (hb : ∀ op ∈ (hostOps0 : List (HloOp τ sig (Elt Ideal))), Proc.devRef .tc b ∉ op.writes) :
    V1 m ρ c b = m ((c : Thread nD τ).loc b) :=
  StableHlo.after_of_forall_not_mem (b := Proc.devRef .tc b) _ _ hb

theorem V1_arg0 (c : Dev nD) : V1 m ρ c main_arg0 = m ((c : Thread nD τ).loc main_arg0) :=
  V1_of_not_written m ρ c main_arg0 (List.forall_iff_forall_mem.mp (by
    simp only [hostOps0, List.Forall, StableHlo.unary_writes, StableHlo.reshape_writes, Finset.mem_singleton]
    repeat' apply And.intro
    all_goals exact StableHlo.devRef_ne_of_ne (by decide)))

theorem V1_arg2 (c : Dev nD) : V1 m ρ c main_arg2 = m ((c : Thread nD τ).loc main_arg2) :=
  V1_of_not_written m ρ c main_arg2 (List.forall_iff_forall_mem.mp (by
    simp only [hostOps0, List.Forall, StableHlo.unary_writes, StableHlo.reshape_writes, Finset.mem_singleton]
    repeat' apply And.intro
    all_goals exact StableHlo.devRef_ne_of_ne (by decide)))

/-- The first row the projection kernel reads is the first half of the attention vector, relaid. -/
theorem V1_v1 (c : Dev nD) :
    (V1 m ρ c main_v1 : S1x64.Idx → EReal)
      = shapeCast S1x64 (extractStridedSlice S64x1 ![0, 0] (m ((c : Thread nD τ).loc main_arg3) : S128x1.Idx → EReal)
          Facts₀.slices_S128x1_S64x1_0_0) Facts₀.shapeCasts_S64x1_S1x64 := by
  dsimp only [V1, W1, hostOps0]
  after_results
  rfl

/-- The second row is the second half, relaid. -/
theorem V1_v3 (c : Dev nD) :
    (V1 m ρ c main_v3 : S1x64.Idx → EReal)
      = shapeCast S1x64 (extractStridedSlice S64x1 ![64, 0] (m ((c : Thread nD τ).loc main_arg3) : S128x1.Idx → EReal)
          Facts₀.slices_S128x1_S64x1_64_0) Facts₀.shapeCasts_S64x1_S1x64 := by
  dsimp only [V1, W1, hostOps0]
  after_results
  rfl

/-- Entry k of the first row is entry k of the attention vector. -/
theorem V1_v1_apply (c : Dev nD) (k : Fin 64) :
    (V1 m ρ c main_v1 : S1x64.Idx → EReal) (ix2 (0 : Fin 1) k)
      = aSrc (toMat (m ((c : Thread nD τ).loc main_arg3) : S128x1.Idx → EReal)) k := by
  rw [V1_v1]
  rw [shapeCast_apply _ Facts₀.shapeCasts_S64x1_S1x64 (ix2 (0 : Fin 1) k) (ix2 k (0 : Fin 1)) (by
    rw [Shape.rowMajor_val_two, Shape.rowMajor_val_two]
    show k.val * 1 + 0 = 0 * 64 + k.val
    omega)]
  exact extractStridedSlice_apply _ _ Facts₀.slices_S128x1_S64x1_0_0 (ix2 k (0 : Fin 1))
    (ix2 (⟨k.val, by omega⟩ : Fin 128) (0 : Fin 1)) (fun a => by
      match a with
      | ⟨0, _⟩ => show k.val = 0 + k.val; omega
      | ⟨1, _⟩ => show (0 : ℕ) = 0 + 0; rfl)

/-- Entry k of the second row is entry 64 + k of the attention vector. -/
theorem V1_v3_apply (c : Dev nD) (k : Fin 64) :
    (V1 m ρ c main_v3 : S1x64.Idx → EReal) (ix2 (0 : Fin 1) k)
      = aDst (toMat (m ((c : Thread nD τ).loc main_arg3) : S128x1.Idx → EReal)) k := by
  rw [V1_v3]
  rw [shapeCast_apply _ Facts₀.shapeCasts_S64x1_S1x64 (ix2 (0 : Fin 1) k) (ix2 k (0 : Fin 1)) (by
    rw [Shape.rowMajor_val_two, Shape.rowMajor_val_two]
    show k.val * 1 + 0 = 0 * 64 + k.val
    omega)]
  exact extractStridedSlice_apply _ _ Facts₀.slices_S128x1_S64x1_64_0 (ix2 k (0 : Fin 1))
    (ix2 (⟨64 + k.val, by omega⟩ : Fin 128) (0 : Fin 1)) (fun a => by
      match a with
      | ⟨0, _⟩ => show 64 + k.val = 64 + k.val; rfl
      | ⟨1, _⟩ => show (0 : ℕ) = 0 + 0; rfl)

/-! ## Between the two kernels: the target scores relaid as a row -/

/-- A buffer the second host stretch does not write is as the projection kernel left it. -/
theorem V3_of_not_written (c : Dev nD) (b : Ref sig .tc)
    (hb : ∀ op ∈ (hostOps1 : List (HloOp τ sig (Elt Ideal))), Proc.devRef .tc b ∉ op.writes) :
    V3 m ρ c b = W2 m ρ c (Proc.devRef .tc b) :=
  StableHlo.after_of_forall_not_mem (b := Proc.devRef .tc b) _ _ hb

/-- The source scores the attention kernel reads are the projection kernel's second output array. -/
theorem V3_v4_1 (c : Dev nD) : V3 m ρ c main_v4_1 = (dat0 (V1 m ρ) c).arrAt 5 cfg0.N :=
  (V3_of_not_written m ρ c main_v4_1 (List.forall_iff_forall_mem.mp (by
    simp only [hostOps1, List.Forall, StableHlo.reshape_writes, Finset.mem_singleton]
    exact StableHlo.devRef_ne_of_ne (by decide)))).trans (W2_arr m ρ c 5)

/-- The extended features it reads are the first output array. -/
theorem V3_v4_0 (c : Dev nD) : V3 m ρ c main_v4_0 = (dat0 (V1 m ρ) c).arrAt 4 cfg0.N :=
  (V3_of_not_written m ρ c main_v4_0 (List.forall_iff_forall_mem.mp (by
    simp only [hostOps1, List.Forall, StableHlo.reshape_writes, Finset.mem_singleton]
    exact StableHlo.devRef_ne_of_ne (by decide)))).trans (W2_arr m ρ c 4)

/-- The adjacency it reads is the argument as launched. -/
theorem V3_arg1 (c : Dev nD) : V3 m ρ c main_arg1 = m ((c : Thread nD τ).loc main_arg1) :=
  (V3_of_not_written m ρ c main_arg1 (List.forall_iff_forall_mem.mp (by
    simp only [hostOps1, List.Forall, StableHlo.reshape_writes, Finset.mem_singleton]
    exact StableHlo.devRef_ne_of_ne (by decide)))).trans
  ((W2_of_ne m ρ c main_arg1 (by decide)).trans
  (V1_of_not_written m ρ c main_arg1 (List.forall_iff_forall_mem.mp (by
    simp only [hostOps0, List.Forall, StableHlo.unary_writes, StableHlo.reshape_writes, Finset.mem_singleton]
    repeat' apply And.intro
    all_goals exact StableHlo.devRef_ne_of_ne (by decide)))))

/-- The target-score row is the third output array (a column) relaid. -/
theorem V3_v5 (c : Dev nD) :
    (V3 m ρ c main_v5 : S1x8192.Idx → EReal)
      = shapeCast S1x8192 ((dat0 (V1 m ρ) c).arrAt 6 cfg0.N : S8192x1.Idx → EReal) Facts₀.shapeCasts_S8192x1_S1x8192 := by
  have e : (V3 m ρ c main_v5 : S1x8192.Idx → EReal)
      = shapeCast S1x8192 (W2 m ρ c (Proc.devRef .tc main_v4_2) : S8192x1.Idx → EReal) Facts₀.shapeCasts_S8192x1_S1x8192 := by
    dsimp only [V3, W3, hostOps1]
    after_results
    rfl
  rw [e, W2_arr m ρ c 6]

/-- Entry j of the row is entry j of the column. -/
theorem V3_v5_apply (c : Dev nD) (j : Fin 8192) :
    (V3 m ρ c main_v5 : S1x8192.Idx → EReal) (ix2 (0 : Fin 1) j)
      = ((dat0 (V1 m ρ) c).arrAt 6 cfg0.N : S8192x1.Idx → EReal) (ix2 j (0 : Fin 1)) := by
  rw [V3_v5]
  exact shapeCast_apply _ Facts₀.shapeCasts_S8192x1_S1x8192 (ix2 (0 : Fin 1) j) (ix2 j (0 : Fin 1)) (by
    rw [Shape.rowMajor_val_two, Shape.rowMajor_val_two]
    show j.val * 1 + 0 = 0 * 8192 + j.val
    omega)

/-! ## The result -/

/-- The result buffer ends at the fused arrangement of the layer, of the argument arrays as launched: the attention
    kernel's rows are the fused row computation of the logits built from the projection kernel's two score arrays and
    the adjacency, against its extended-features array. -/
theorem result_eq (c : Dev nD) :
    (W4 (F := Ideal) m ρ c (Proc.devRef .tc main_v6) : S8192x64.Idx → EReal)
      = ofMat (outFused (toMat (m ((c.tc : Thread nD τ).loc main_arg0) : S8192x512.Idx → EReal))
          (toMat (m ((c.tc : Thread nD τ).loc main_arg1) : S8192x8192.Idx → BitVec 32))
          (toMat (m ((c.tc : Thread nD τ).loc main_arg2) : S512x64.Idx → EReal))
          (toMat (m ((c.tc : Thread nD τ).loc main_arg3) : S128x1.Idx → EReal))) := by
  have e0 : (W4 (F := Ideal) m ρ c (Proc.devRef .tc main_v6) : S8192x64.Idx → EReal)
      = (dat1 (F := Ideal) (V3 m ρ) c).arrAt 4 cfg1.N := W4_arr m ρ c 4
  rw [e0, Cert.KernelIdeal.AttnArray.out_array (V3 m ρ) c]
  have hP : Cert.KernelIdeal.LinearArrays.projOf (V1 m ρ) c
      = proj (toMat (m ((c.tc : Thread nD τ).loc main_arg0) : S8192x512.Idx → EReal))
          (toMat (m ((c.tc : Thread nD τ).loc main_arg2) : S512x64.Idx → EReal)) := by
    show proj (toMat (V1 m ρ c main_arg0 : S8192x512.Idx → EReal)) (toMat (V1 m ρ c main_arg2 : S512x64.Idx → EReal)) = _
    rw [V1_arg0, V1_arg2]
  have hA : toMat (V3 m ρ c main_v4_0 : S8192x128.Idx → EReal)
      = aug (proj (toMat (m ((c.tc : Thread nD τ).loc main_arg0) : S8192x512.Idx → EReal))
          (toMat (m ((c.tc : Thread nD τ).loc main_arg2) : S512x64.Idx → EReal))) := by
    rw [V3_v4_0, Cert.KernelIdeal.LinearArrays.aug_array (V1 m ρ) c, toMat_ofMat, hP]
  have hs : ∀ i : Fin 8192, (V3 m ρ c main_v4_1 : S8192x1.Idx → EReal) (ix2 i (0 : Fin 1))
      = half (proj (toMat (m ((c.tc : Thread nD τ).loc main_arg0) : S8192x512.Idx → EReal))
          (toMat (m ((c.tc : Thread nD τ).loc main_arg2) : S512x64.Idx → EReal)))
          (aSrc (toMat (m ((c.tc : Thread nD τ).loc main_arg3) : S128x1.Idx → EReal))) i := by
    intro i
    rw [V3_v4_1, Cert.KernelIdeal.LinearArrays.src_array (V1 m ρ) c, ofMat_ix2, hP]
    exact congrArg (fun a' => half _ a' i) (funext fun k => V1_v1_apply m ρ c k)
  have ht : ∀ j : Fin 8192, (V3 m ρ c main_v5 : S1x8192.Idx → EReal) (ix2 (0 : Fin 1) j)
      = half (proj (toMat (m ((c.tc : Thread nD τ).loc main_arg0) : S8192x512.Idx → EReal))
          (toMat (m ((c.tc : Thread nD τ).loc main_arg2) : S512x64.Idx → EReal)))
          (aDst (toMat (m ((c.tc : Thread nD τ).loc main_arg3) : S128x1.Idx → EReal))) j := by
    intro j
    rw [V3_v5_apply, Cert.KernelIdeal.LinearArrays.dst_array (V1 m ρ) c, ofMat_ix2, hP]
    exact congrArg (fun a' => half _ a' j) (funext fun k => V1_v3_apply m ρ c k)
  refine congrArg ofMat (funext fun i => funext fun k => ?_)
  have hf : (fun j : Fin 8192 => logit ((V3 m ρ c main_v4_1 : S8192x1.Idx → EReal) (ix2 i (0 : Fin 1)))
        ((V3 m ρ c main_v5 : S1x8192.Idx → EReal) (ix2 (0 : Fin 1) j))
        ((V3 m ρ c main_arg1 : S8192x8192.Idx → BitVec 32) (ix2 i j)))
      = logits (half (proj (toMat (m ((c.tc : Thread nD τ).loc main_arg0) : S8192x512.Idx → EReal))
            (toMat (m ((c.tc : Thread nD τ).loc main_arg2) : S512x64.Idx → EReal)))
            (aSrc (toMat (m ((c.tc : Thread nD τ).loc main_arg3) : S128x1.Idx → EReal))))
          (half (proj (toMat (m ((c.tc : Thread nD τ).loc main_arg0) : S8192x512.Idx → EReal))
            (toMat (m ((c.tc : Thread nD τ).loc main_arg2) : S512x64.Idx → EReal)))
            (aDst (toMat (m ((c.tc : Thread nD τ).loc main_arg3) : S128x1.Idx → EReal))))
          (toMat (m ((c.tc : Thread nD τ).loc main_arg1) : S8192x8192.Idx → BitVec 32)) i := by
    funext j
    rw [hs i, ht j, V3_arg1]
    rfl
  rw [hf, hA]
  rfl

end Cert.KernelIdeal.Value

end
-- ==== Proof.RefTerm.lean ====
/-
  The reference's result as one term of its argument arrays: the projection, the two score columns, the pair sums,
  the leaky rectifier, the adjacency mask, the row softmax, the mix with the projected features and the exponential
  linear unit, each the host operation the program applies, in the program's order.
-/
import proofs.«416510_j8246337208821_3_alg».proof.ReferenceIdeal

noncomputable section

namespace Cert.ReferenceIdeal.Term

open Idealize.ShloMosaic Cert.ReferenceIdeal
open Cert.ReferenceIdeal.Facts₀ Cert.ReferenceIdeal.Facts

variable {F : FTy → Type} [FloatOps F] [Cert.ReferenceIdeal.Facts]

/-- P = h · W. -/
def projV (h : FVec F S8192x512 .f32) (W : FVec F S512x64 .f32) : FVec F S8192x64 .f32 :=
  Host.dotGeneral dot_S8192x512_S512x64_S8192x64_1_0_0_1_n_n none h W

/-- Every pair's logit: the sum of the source score column broadcast along rows and the transposed target score
    column broadcast along columns, through the leaky rectifier, masked by the adjacency. -/
def logitsV (h : FVec F S8192x512 .f32) (adj : IVec S8192x8192 32) (W : FVec F S512x64 .f32) (a : FVec F S128x1 .f32) :
    FVec F S8192x8192 .f32 :=
  let P : FVec F S8192x64 .f32 := projV h W
  let s : FVec F S8192x1 .f32 := Host.dotGeneral dot_S8192x64_S64x1_S8192x1_1_0_0_1_n_n none P
    (extractStridedSlice S64x1 ![0, 0] a slices_S128x1_S64x1_0_0)
  let t : FVec F S8192x1 .f32 := Host.dotGeneral dot_S8192x64_S64x1_S8192x1_1_0_0_1_n_n none P
    (extractStridedSlice S64x1 ![64, 0] a slices_S128x1_S64x1_64_0)
  let e : FVec F S8192x8192 .f32 := addf (broadcastInDim S8192x8192 ![0, 1] bcast_S8192x1_S8192x8192_0_1 s)
    (broadcastInDim S8192x8192 ![0, 1] bcast_S1x8192_S8192x8192_0_1 (transpose S1x8192 [1, 0] t transposes_S8192x1_S1x8192_1_0))
  let l : FVec F S8192x8192 .f32 :=
    select (cmpf .oge e (broadcastInDim S8192x8192 ![] bcast_S_S8192x8192 (constant S_ .f32 0x00000000#32))) e
      (mulf (broadcastInDim S8192x8192 ![] bcast_S_S8192x8192 (id (constant S_ .f32 0x3E4CCCCD#32))) e)
  select (cmpi .sgt adj (broadcastInDim S8192x8192 ![] bcast_S_S8192x8192 (constantI S_ 32 0#32))) l
    (broadcastInDim S8192x8192 ![] bcast_S_S8192x8192 (constant S_ .f32 0xCF000000#32))

/-- From the logits and P to the result: the row softmax (the row maximum compared once more with −∞, subtracted,
    exponentiated, divided by the row sum), the mix with P, the exponential linear unit. -/
def tailV (x : FVec F S8192x8192 .f32) (P : FVec F S8192x64 .f32) : FVec F S8192x64 .f32 :=
  let mx : FVec F S8192 .f32 := maximumf (broadcastInDim S8192 ![] bcast_S_S8192 (constant S_ .f32 0xFF800000#32))
    (Host.reduce FloatOps.maximumf x (constant S_ .f32 0xFF800000#32) reducesTo_S8192x8192_S8192_d1 h_S_)
  let ex : FVec F S8192x8192 .f32 := Host.exp (subf x
    (broadcastInDim S8192x8192 ![0, 1] bcast_S8192x1_S8192x8192_0_1 (broadcastInDim S8192x1 ![0] bcast_S8192_S8192x1_0 mx)))
  let q : FVec F S8192x8192 .f32 := Host.divf ex
    (broadcastInDim S8192x8192 ![0, 1] bcast_S8192x1_S8192x8192_0_1 (broadcastInDim S8192x1 ![0] bcast_S8192_S8192x1_0
      (Host.reduceAdd ex (constant S_ .f32 0x00000000#32) reducesTo_S8192x8192_S8192_d1 h_S_)))
  let y : FVec F S8192x64 .f32 := Host.dotGeneral dot_S8192x8192_S8192x64_S8192x64_1_0_0_1_n_n none q P
  let pos : IVec S8192x64 1 := cmpf .ogt y (broadcastInDim S8192x64 ![] bcast_S_S8192x64 (constant S_ .f32 0x00000000#32))
  select pos y
    (mulf (broadcastInDim S8192x64 ![] bcast_S_S8192x64 (constant S_ .f32 0x3F800000#32))
      (Host.expm1 (select pos (broadcastInDim S8192x64 ![] bcast_S_S8192x64 (id (constant S_ .f32 0x00000000#32))) y)))

/-- The reference's result. -/
def refTerm (h : FVec F S8192x512 .f32) (adj : IVec S8192x8192 32) (W : FVec F S512x64 .f32) (a : FVec F S128x1 .f32) :
    FVec F S8192x64 .f32 :=
  tailV (logitsV h adj W a) (projV h W)

end Cert.ReferenceIdeal.Term

end
-- ==== Proof.RefRun.lean ====
/-
  The reference's run: every weakly fair execution of the host program ends with its result buffer at the composed
  term of the argument arrays, and the arguments as launched.
-/
import proofs.«416510_j8246337208821_3_alg».proof.ReferenceIdeal
import proofs.«416510_j8246337208821_3_alg».proof.Proof.Gen.ReferenceIdeal
import proofs.«416510_j8246337208821_3_alg».proof.Proof.RefTerm
import Idealize.ShloMosaic.Lib.StableHlo.Run

noncomputable section

namespace Cert.ReferenceIdeal.RefRun

open Idealize.ShloMosaic Idealize.ShloMosaic.TcCoe Idealize.ShloMosaic.StableHlo Idealize.SL.Sem
open Cert.ReferenceIdeal Cert.ReferenceIdeal.Term

variable {F : FTy → Type} [FloatOps F]

section Line

open Cert.ReferenceIdeal.Facts₀ Cert.ReferenceIdeal.Facts

variable [Cert.ReferenceIdeal.Facts]

/-- The host program as one straight line of fifty-three operations, each call replaced by its callee's operations
    over that call's own buffers: the projection and the two score columns (three contractions over two slices of
    the attention vector), the pair sums (a transpose, two broadcasts, a sum), the leaky rectifier (a comparison
    with zero, a product with the slope, a choice), the adjacency mask (a comparison of integers, a choice against
    the fill), the row softmax (a maximum along rows joined once more with −∞, a difference, an exponential, a sum
    along rows, a quotient), the mix with the projected features (a contraction over the 8192 neighbours), and the
    exponential linear unit (two comparisons with zero, a clipped argument, exp − 1, a product with one, a choice). -/
abbrev ops : List (HloOp τ sig (Elt F)) :=
  [ nullary main_cst (constant S_ .f32 0xCF000000#32),
    binary main_arg0 main_arg2 main_v0 ((fun l r => Host.dotGeneral dot_S8192x512_S512x64_S8192x64_1_0_0_1_n_n none l r) : (⟨S8192x512, .f32⟩ : BufTy).Contents (Elt F) → (⟨S512x64, .f32⟩ : BufTy).Contents (Elt F) → (⟨S8192x64, .f32⟩ : BufTy).Contents (Elt F)),
    unary main_arg3 main_v1 ((extractStridedSlice S64x1 ![0, 0] · slices_S128x1_S64x1_0_0) : (⟨S128x1, .f32⟩ : BufTy).Contents (Elt F) → (⟨S64x1, .f32⟩ : BufTy).Contents (Elt F)),
    binary main_v0 main_v1 main_v2 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)),
    unary main_arg3 main_v3 ((extractStridedSlice S64x1 ![64, 0] · slices_S128x1_S64x1_64_0) : (⟨S128x1, .f32⟩ : BufTy).Contents (Elt F) → (⟨S64x1, .f32⟩ : BufTy).Contents (Elt F)),
    binary main_v0 main_v3 main_v4 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)),
    unary main_v4 main_v5 ((transpose S1x8192 [1, 0] · transposes_S8192x1_S1x8192_1_0) : (⟨S8192x1, .f32⟩ : BufTy).Contents (Elt F) → (⟨S1x8192, .f32⟩ : BufTy).Contents (Elt F)),
    unary main_v2 main_v6 (broadcastInDim S8192x8192 ![0, 1] bcast_S8192x1_S8192x8192_0_1 : (⟨S8192x1, .f32⟩ : BufTy).Contents (Elt F) → (⟨S8192x8192, .f32⟩ : BufTy).Contents (Elt F)),
    unary main_v5 main_v7 (broadcastInDim S8192x8192 ![0, 1] bcast_S1x8192_S8192x8192_0_1 : (⟨S1x8192, .f32⟩ : BufTy).Contents (Elt F) → (⟨S8192x8192, .f32⟩ : BufTy).Contents (Elt F)),
    binary main_v6 main_v7 main_v8 (addf : (⟨S8192x8192, .f32⟩ : BufTy).Contents (Elt F) → (⟨S8192x8192, .f32⟩ : BufTy).Contents (Elt F) → (⟨S8192x8192, .f32⟩ : BufTy).Contents (Elt F)),
    nullary main_cst_0 (constant S_ .f32 0x3E4CCCCD#32),
    -- the leaky rectifier of the pair sums
    TRef.nullary main_call0.cst (constant S_ .f32 0x00000000#32),
    TRef.unary main_call0.cst main_call0.v0 (broadcastInDim S8192x8192 ![] bcast_S_S8192x8192),
    TRef.binary (.of main_v8 : TRef sig ⟨S8192x8192, .f32⟩) main_call0.v0 main_call0.v1 (cmpf .oge),
    TRef.unary (.of main_cst_0 : TRef sig ⟨S_, .f32⟩) main_call0.v2 id,
    TRef.unary main_call0.v2 main_call0.v3 (broadcastInDim S8192x8192 ![] bcast_S_S8192x8192),
    TRef.binary main_call0.v3 (.of main_v8 : TRef sig ⟨S8192x8192, .f32⟩) main_call0.v4 mulf,
    TRef.ternary main_call0.v1 (.of main_v8 : TRef sig ⟨S8192x8192, .f32⟩) main_call0.v4 main_call0.call0.v0 select,
    -- the adjacency mask
    nullary main_c (constantI S_ 32 0#32),
    unary main_c main_v10 (broadcastInDim S8192x8192 ![] bcast_S_S8192x8192 : (⟨S_, .i32⟩ : BufTy).Contents (Elt F) → (⟨S8192x8192, .i32⟩ : BufTy).Contents (Elt F)),
    binary main_arg1 main_v10 main_v11 (cmpi .sgt : (⟨S8192x8192, .i32⟩ : BufTy).Contents (Elt F) → (⟨S8192x8192, .i32⟩ : BufTy).Contents (Elt F) → (⟨S8192x8192, .i1⟩ : BufTy).Contents (Elt F)),
    TRef.unary (.of main_cst : TRef sig ⟨S_, .f32⟩) main_call1.v0 (broadcastInDim S8192x8192 ![] bcast_S_S8192x8192),
    TRef.ternary (.of main_v11 : TRef sig ⟨S8192x8192, .i1⟩) (.of main_v9 : TRef sig ⟨S8192x8192, .f32⟩) main_call1.v0 main_call1.v1 select,
    -- the row softmax
    nullary main_cst_1 (constant S_ .f32 0xFF800000#32),
    binary main_v12 main_cst_1 main_v13 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_2 (constant S_ .f32 0xFF800000#32),
    unary main_cst_2 main_v14 (broadcastInDim S8192 ![] bcast_S_S8192 : (⟨S_, .f32⟩ : BufTy).Contents (Elt F) → (⟨S8192, .f32⟩ : BufTy).Contents (Elt F)),
    binary main_v14 main_v13 main_v15 (maximumf : (⟨S8192, .f32⟩ : BufTy).Contents (Elt F) → (⟨S8192, .f32⟩ : BufTy).Contents (Elt F) → (⟨S8192, .f32⟩ : BufTy).Contents (Elt F)),
    unary main_v15 main_v16 (broadcastInDim S8192x1 ![0] bcast_S8192_S8192x1_0 : (⟨S8192, .f32⟩ : BufTy).Contents (Elt F) → (⟨S8192x1, .f32⟩ : BufTy).Contents (Elt F)),
    unary main_v16 main_v17 (broadcastInDim S8192x8192 ![0, 1] bcast_S8192x1_S8192x8192_0_1 : (⟨S8192x1, .f32⟩ : BufTy).Contents (Elt F) → (⟨S8192x8192, .f32⟩ : BufTy).Contents (Elt F)),
    binary main_v12 main_v17 main_v18 (subf : (⟨S8192x8192, .f32⟩ : BufTy).Contents (Elt F) → (⟨S8192x8192, .f32⟩ : BufTy).Contents (Elt F) → (⟨S8192x8192, .f32⟩ : BufTy).Contents (Elt F)),
    unary main_v18 main_v19 (Host.exp : (⟨S8192x8192, .f32⟩ : BufTy).Contents (Elt F) → (⟨S8192x8192, .f32⟩ : BufTy).Contents (Elt F)),
    nullary main_cst_3 (constant S_ .f32 0x00000000#32),
    binary main_v19 main_cst_3 main_v20 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v20 main_v21 (broadcastInDim S8192x1 ![0] bcast_S8192_S8192x1_0 : (⟨S8192, .f32⟩ : BufTy).Contents (Elt F) → (⟨S8192x1, .f32⟩ : BufTy).Contents (Elt F)),
    unary main_v21 main_v22 (broadcastInDim S8192x8192 ![0, 1] bcast_S8192x1_S8192x8192_0_1 : (⟨S8192x1, .f32⟩ : BufTy).Contents (Elt F) → (⟨S8192x8192, .f32⟩ : BufTy).Contents (Elt F)),
    binary main_v19 main_v22 main_v23 (Host.divf : (⟨S8192x8192, .f32⟩ : BufTy).Contents (Elt F) → (⟨S8192x8192, .f32⟩ : BufTy).Contents (Elt F) → (⟨S8192x8192, .f32⟩ : BufTy).Contents (Elt F)),
    -- the mix with the projected features
    binary main_v23 main_v0 main_v24 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    -- the exponential linear unit
    TRef.nullary main_call2.cst (constant S_ .f32 0x00000000#32),
    TRef.unary main_call2.cst main_call2.v0 (broadcastInDim S8192x64 ![] bcast_S_S8192x64),
    TRef.binary (.of main_v24 : TRef sig ⟨S8192x64, .f32⟩) main_call2.v0 main_call2.v1 (cmpf .ogt),
    TRef.nullary main_call2.cst_0 (constant S_ .f32 0x00000000#32),
    TRef.unary main_call2.cst_0 main_call2.v2 (broadcastInDim S8192x64 ![] bcast_S_S8192x64),
    TRef.binary (.of main_v24 : TRef sig ⟨S8192x64, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S8192x64 ![] bcast_S_S8192x64),
    TRef.ternary main_call2.v3 main_call2.call0.v1 (.of main_v24 : TRef sig ⟨S8192x64, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S8192x64 ![] bcast_S_S8192x64),
    TRef.binary main_call2.v6 main_call2.v5 main_call2.v7 mulf,
    TRef.ternary main_call2.v1 (.of main_v24 : TRef sig ⟨S8192x64, .f32⟩) main_call2.v7 main_call2.call1.v0 select ]

set_option maxRecDepth 1024 in
/-- The program is that line: the callees' bodies substituted at their calls, the sequencing reassociated. -/
theorem main_eq (c : Dev nD) : main (F := F) c = seq ops := by
  simp only [main, fn_leaky_relu.body, fn_where.body, fn_where_0.body, fn_elu.body, fn_where_1.body, fn_where_2.body,
    seq, bind_assoc, pure_bind]

/-- The signature scopes no buffer and no semaphore: all fifty-seven buffers are tensor values. -/
theorem scopedRefs_eq : (Finset.univ.filter fun b : Ref sig .tc => b.isScoped) = ∅ := by decide
theorem scopedSems_eq : (Finset.univ.filter fun sm : SemLoc sig => sm.isScoped .tc) = ∅ := by decide

/-- Every operation of the line touches buffers of the core only. -/
theorem ops_sub : (ops : List (HloOp τ sig (Elt F))).Forall fun op => op.bufs ⊆ tcRefs τ sig :=
  ⟨nullary_bufs_sub .., binary_bufs_sub .., unary_bufs_sub .., binary_bufs_sub .., unary_bufs_sub .., binary_bufs_sub ..,
    unary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..,
    nullary_bufs_sub .., unary_bufs_sub .., binary_bufs_sub .., unary_bufs_sub .., ternary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub ..,
    binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

/-- Every weakly fair execution of the program ends, each buffer of the core at the line's fold over the launch
    contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.reduceAdd Host.exp Host.expm1 Host.divf in
/-- The fold read at the result buffer is the composed term: each operation's result is its function at the contents
    of its operand buffers, every other buffer keeps what it held (the buffers are pairwise distinct), and the
    transports along the typed references' type equations are identities. The maximum and the sum along rows, the
    exponentials and the quotient stay folded throughout: the equation is between two trees of the same operations
    and never looks inside one (the contractions are the float instance's own and have nothing to open). -/
theorem out_eq (V : Valuation τ sig (Elt F)) :
    after ops V (main_v25 : DevRef τ sig)
      = refTerm (F := F) (V (main_arg0 : DevRef τ sig)) (V (main_arg1 : DevRef τ sig)) (V (main_arg2 : DevRef τ sig))
          (V (main_arg3 : DevRef τ sig)) := by
  after_results_simp
  rfl

/-- No operation of the line writes an argument buffer: each keeps its launch contents. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

end Line

/-- The run, with the result named. -/
theorem run [Cert.ReferenceIdeal.Facts] (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v25)
          = refTerm (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v25).trans (out_eq _), (h c main_arg0).trans (arg0_eq _),
      (h c main_arg1).trans (arg1_eq _), (h c main_arg2).trans (arg2_eq _), (h c main_arg3).trans (arg3_eq _)⟩)
    (run_main m ρ)

end Cert.ReferenceIdeal.RefRun

end
-- ==== Proof.RefScores.lean ====
/-
  The reference's projection and logits read at an index: entry (i, k) of P is row i of h against column k of W, and
  the logit of the pair (i, j) is the spec's logit of the source score at i, the target score at j and the adjacency
  word at (i, j).
-/
import proofs.«416510_j8246337208821_3_alg».proof.Proof.RefTerm
import proofs.«416510_j8246337208821_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefScores

open Idealize.ShloMosaic Idealize.ShloMosaic.ValueIdx Cert.ReferenceIdeal Cert.ReferenceIdeal.Term Cert.Gat

variable [Cert.ReferenceIdeal.Facts]

/-! ## The product h · W: which operand entries meet at an output entry

The product contracts axis 1 of the left operand with axis 0 of the right one and has no batch axis. At output entry
(r, c) and contraction position q the left operand is read at (r, q) and the right one at (q, c); the four lemmas below
say so one coordinate at a time. -/

/-- Left operand, row coordinate: the output's row. -/
private theorem lhs_proj_0 (i : S8192x64.Idx) (q : dot_S8192x512_S512x64_S8192x64_1_0_0_1_n_n.contr.Idx) :
    (dot_S8192x512_S512x64_S8192x64_1_0_0_1_n_n.lhsIdx i q 0).val = (i 0).val := by
  unfold DotDims.lhsIdx
  rw [dif_neg (show ¬(0 : Fin S8192x512.rank) ∈ dot_S8192x512_S512x64_S8192x64_1_0_0_1_n_n.lhsBatch from List.not_mem_nil),
    dif_pos (show (0 : Fin S8192x512.rank) ∈ dot_S8192x512_S512x64_S8192x64_1_0_0_1_n_n.lhsNonContracting from List.mem_singleton.mpr rfl)]
  rfl

/-- Left operand, column coordinate: the contraction position. -/
private theorem lhs_proj_1 (i : S8192x64.Idx) (q : dot_S8192x512_S512x64_S8192x64_1_0_0_1_n_n.contr.Idx) :
    (dot_S8192x512_S512x64_S8192x64_1_0_0_1_n_n.lhsIdx i q 1).val = (q ⟨0, Nat.one_pos⟩).val :=
  dot_S8192x512_S512x64_S8192x64_1_0_0_1_n_n.lhsIdx_val_of_single rfl i q

/-- Right operand, row coordinate: the contraction position. -/
private theorem rhs_proj_0 (i : S8192x64.Idx) (q : dot_S8192x512_S512x64_S8192x64_1_0_0_1_n_n.contr.Idx) :
    (dot_S8192x512_S512x64_S8192x64_1_0_0_1_n_n.rhsIdx i q 0).val = (q ⟨0, Nat.one_pos⟩).val :=
  dot_S8192x512_S512x64_S8192x64_1_0_0_1_n_n.rhsIdx_val_of_single rfl i q

/-- Right operand, column coordinate: the output's column. -/
private theorem rhs_proj_1 (i : S8192x64.Idx) (q : dot_S8192x512_S512x64_S8192x64_1_0_0_1_n_n.contr.Idx) :
    (dot_S8192x512_S512x64_S8192x64_1_0_0_1_n_n.rhsIdx i q 1).val = (i 1).val := by
  unfold DotDims.rhsIdx
  rw [dif_neg (show ¬(1 : Fin S512x64.rank) ∈ dot_S8192x512_S512x64_S8192x64_1_0_0_1_n_n.rhsBatch from List.not_mem_nil),
    dif_pos (show (1 : Fin S512x64.rank) ∈ dot_S8192x512_S512x64_S8192x64_1_0_0_1_n_n.rhsNonContracting from List.mem_singleton.mpr rfl)]
  rfl

/- The product at an entry is the sum, over the positions of its one contracted axis, of the two operand entries that
   meet there. That axis has 512 positions, so the sum is re-indexed over d : Fin 512 through the bijection between a
   one-axis contraction position and its coordinate; the summand at d is h (i, d) · W (d, k), which is the spec's
   projection entry term by term. -/
/-- P at (i, k). -/
theorem projV_apply (h : FVec Ideal S8192x512 .f32) (W : FVec Ideal S512x64 .f32) (i : Fin 8192) (k : Fin 64) :
    projV (F := Ideal) h W (ix2 i k) = proj (toMat h) (toMat W) i k := by
  unfold projV proj toMat
  simp only [Host.dotGeneral]
  rw [Ideal.dotGeneral_apply, ← Equiv.sum_comp (contrEquiv1 dot_S8192x512_S512x64_S8192x64_1_0_0_1_n_n 512 rfl rfl).symm]
  refine Finset.sum_congr rfl fun d _ => ?_
  have hd := contrEquiv1_symm_val dot_S8192x512_S512x64_S8192x64_1_0_0_1_n_n 512 rfl rfl d
  have el : dot_S8192x512_S512x64_S8192x64_1_0_0_1_n_n.lhsIdx (ix2 i k) ((contrEquiv1 dot_S8192x512_S512x64_S8192x64_1_0_0_1_n_n 512 rfl rfl).symm d) = ix2 i d :=
    funext fun a => Fin.ext (by
      match a with
      | ⟨0, _⟩ => exact lhs_proj_0 _ _
      | ⟨1, _⟩ => exact (lhs_proj_1 _ _).trans hd)
  have er : dot_S8192x512_S512x64_S8192x64_1_0_0_1_n_n.rhsIdx (ix2 i k) ((contrEquiv1 dot_S8192x512_S512x64_S8192x64_1_0_0_1_n_n 512 rfl rfl).symm d) = ix2 d k :=
    funext fun a => Fin.ext (by
      match a with
      | ⟨0, _⟩ => exact (rhs_proj_0 _ _).trans hd
      | ⟨1, _⟩ => exact rhs_proj_1 _ _)
  rw [el, er]

/-! ## A score column P · b, with b a column of 64 entries

The same kind of product with a one-column right operand: at output entry (r, 0) and contraction position q the left
operand is read at (r, q) and the right one at (q, 0). -/

/-- Left operand, row coordinate: the output's row. -/
private theorem lhs_score_0 (i : S8192x1.Idx) (q : dot_S8192x64_S64x1_S8192x1_1_0_0_1_n_n.contr.Idx) :
    (dot_S8192x64_S64x1_S8192x1_1_0_0_1_n_n.lhsIdx i q 0).val = (i 0).val := by
  unfold DotDims.lhsIdx
  rw [dif_neg (show ¬(0 : Fin S8192x64.rank) ∈ dot_S8192x64_S64x1_S8192x1_1_0_0_1_n_n.lhsBatch from List.not_mem_nil),
    dif_pos (show (0 : Fin S8192x64.rank) ∈ dot_S8192x64_S64x1_S8192x1_1_0_0_1_n_n.lhsNonContracting from List.mem_singleton.mpr rfl)]
  rfl

/-- Left operand, column coordinate: the contraction position. -/
private theorem lhs_score_1 (i : S8192x1.Idx) (q : dot_S8192x64_S64x1_S8192x1_1_0_0_1_n_n.contr.Idx) :
    (dot_S8192x64_S64x1_S8192x1_1_0_0_1_n_n.lhsIdx i q 1).val = (q ⟨0, Nat.one_pos⟩).val :=
  dot_S8192x64_S64x1_S8192x1_1_0_0_1_n_n.lhsIdx_val_of_single rfl i q

/-- Right operand, row coordinate: the contraction position. -/
private theorem rhs_score_0 (i : S8192x1.Idx) (q : dot_S8192x64_S64x1_S8192x1_1_0_0_1_n_n.contr.Idx) :
    (dot_S8192x64_S64x1_S8192x1_1_0_0_1_n_n.rhsIdx i q 0).val = (q ⟨0, Nat.one_pos⟩).val :=
  dot_S8192x64_S64x1_S8192x1_1_0_0_1_n_n.rhsIdx_val_of_single rfl i q

/-- Right operand, column coordinate: the output's (only) column. -/
private theorem rhs_score_1 (i : S8192x1.Idx) (q : dot_S8192x64_S64x1_S8192x1_1_0_0_1_n_n.contr.Idx) :
    (dot_S8192x64_S64x1_S8192x1_1_0_0_1_n_n.rhsIdx i q 1).val = (i 1).val := by
  unfold DotDims.rhsIdx
  rw [dif_neg (show ¬(1 : Fin S64x1.rank) ∈ dot_S8192x64_S64x1_S8192x1_1_0_0_1_n_n.rhsBatch from List.not_mem_nil),
    dif_pos (show (1 : Fin S64x1.rank) ∈ dot_S8192x64_S64x1_S8192x1_1_0_0_1_n_n.rhsNonContracting from List.mem_singleton.mpr rfl)]
  rfl

/-- Entry (i, 0) of P · b is Σ_k P (i, k) · b (k, 0), k over the 64 positions of the contracted axis. -/
private theorem score_apply (P : FVec Ideal S8192x64 .f32) (b : FVec Ideal S64x1 .f32) (i : Fin 8192) :
    Host.dotGeneral dot_S8192x64_S64x1_S8192x1_1_0_0_1_n_n none P b (ix2 i (0 : Fin 1)) = ∑ k : Fin 64, P (ix2 i k) * b (ix2 k (0 : Fin 1)) := by
  simp only [Host.dotGeneral]
  rw [Ideal.dotGeneral_apply, ← Equiv.sum_comp (contrEquiv1 dot_S8192x64_S64x1_S8192x1_1_0_0_1_n_n 64 rfl rfl).symm]
  refine Finset.sum_congr rfl fun k _ => ?_
  have hk := contrEquiv1_symm_val dot_S8192x64_S64x1_S8192x1_1_0_0_1_n_n 64 rfl rfl k
  have el : dot_S8192x64_S64x1_S8192x1_1_0_0_1_n_n.lhsIdx (ix2 i (0 : Fin 1)) ((contrEquiv1 dot_S8192x64_S64x1_S8192x1_1_0_0_1_n_n 64 rfl rfl).symm k) = ix2 i k :=
    funext fun a => Fin.ext (by
      match a with
      | ⟨0, _⟩ => exact lhs_score_0 _ _
      | ⟨1, _⟩ => exact (lhs_score_1 _ _).trans hk)
  have er : dot_S8192x64_S64x1_S8192x1_1_0_0_1_n_n.rhsIdx (ix2 i (0 : Fin 1)) ((contrEquiv1 dot_S8192x64_S64x1_S8192x1_1_0_0_1_n_n 64 rfl rfl).symm k) = ix2 k (0 : Fin 1) :=
    funext fun a => Fin.ext (by
      match a with
      | ⟨0, _⟩ => exact (rhs_score_0 _ _).trans hk
      | ⟨1, _⟩ => exact rhs_score_1 _ _)
  rw [el, er]

/-- The source score of node i: P against rows 0 … 63 of the attention column. Row k of the cut column is row 0 + k of
    the whole one, which is the spec's first half at k; P (i, k) is the projection entry. -/
private theorem srcScore_apply (h : FVec Ideal S8192x512 .f32) (W : FVec Ideal S512x64 .f32) (a : FVec Ideal S128x1 .f32)
    (i : Fin 8192) :
    Host.dotGeneral dot_S8192x64_S64x1_S8192x1_1_0_0_1_n_n none (projV (F := Ideal) h W)
        (extractStridedSlice S64x1 ![0, 0] a Facts₀.slices_S128x1_S64x1_0_0) (ix2 i (0 : Fin 1))
      = half (proj (toMat h) (toMat W)) (aSrc (toMat a)) i := by
  rw [score_apply]
  unfold half aSrc
  refine Finset.sum_congr rfl fun k _ => ?_
  rw [projV_apply,
    slice2_axis0_apply 0 a Facts₀.slices_S128x1_S64x1_0_0 k (0 : Fin 1) ⟨k.val, by omega⟩ (Nat.zero_add _).symm]
  rfl

/-- The target score of node j: P against rows 64 … 127 of the attention column. Row k of the cut column is row 64 + k
    of the whole one, which is the spec's second half at k. -/
private theorem dstScore_apply (h : FVec Ideal S8192x512 .f32) (W : FVec Ideal S512x64 .f32) (a : FVec Ideal S128x1 .f32)
    (j : Fin 8192) :
    Host.dotGeneral dot_S8192x64_S64x1_S8192x1_1_0_0_1_n_n none (projV (F := Ideal) h W)
        (extractStridedSlice S64x1 ![64, 0] a Facts₀.slices_S128x1_S64x1_64_0) (ix2 j (0 : Fin 1))
      = half (proj (toMat h) (toMat W)) (aDst (toMat a)) j := by
  rw [score_apply]
  unfold half aDst
  refine Finset.sum_congr rfl fun k _ => ?_
  rw [projV_apply,
    slice2_axis0_apply 64 a Facts₀.slices_S128x1_S64x1_64_0 k (0 : Fin 1) ⟨64 + k.val, by omega⟩ rfl]
  rfl

/-! ## The pair sums -/

/-- A column of 8192 entries spread over 8192 columns: entry (i, j) is the column's entry i (its second axis has
    extent one, so it is read at 0 there). -/
private theorem colBcast_apply (s : FVec Ideal S8192x1 .f32) (i j : Fin 8192) :
    broadcastInDim S8192x8192 ![0, 1] Facts₀.bcast_S8192x1_S8192x8192_0_1 s (ix2 i j) = s (ix2 i (0 : Fin 1)) :=
  broadcastInDim_apply _ _ s (ix2 i j) (ix2 i (0 : Fin 1)) fun a => by
    match a with
    | ⟨0, _⟩ => rfl
    | ⟨1, _⟩ => rfl

/-- A column transposed into a row and spread over 8192 rows: entry (i, j) is the row's entry (0, j), which is the
    column's entry (j, 0). -/
private theorem rowBcast_apply (t : FVec Ideal S8192x1 .f32) (i j : Fin 8192) :
    broadcastInDim S8192x8192 ![0, 1] Facts₀.bcast_S1x8192_S8192x8192_0_1
        (transpose S1x8192 [1, 0] t Facts₀.transposes_S8192x1_S1x8192_1_0) (ix2 i j) = t (ix2 j (0 : Fin 1)) := by
  refine (broadcastInDim_apply _ _ _ (ix2 i j) (ix2 (0 : Fin 1) j) fun a => ?_).trans ?_
  · match a with
    | ⟨0, _⟩ => rfl
    | ⟨1, _⟩ => rfl
  · exact transpose_ix2_apply t _ (0 : Fin 1) j

/-- Entry (i, j) of the sum of the two spread arrays is s i + t j. -/
private theorem pairSum_apply (s t : FVec Ideal S8192x1 .f32) (i j : Fin 8192) :
    addf (broadcastInDim S8192x8192 ![0, 1] Facts₀.bcast_S8192x1_S8192x8192_0_1 s)
        (broadcastInDim S8192x8192 ![0, 1] Facts₀.bcast_S1x8192_S8192x8192_0_1
          (transpose S1x8192 [1, 0] t Facts₀.transposes_S8192x1_S1x8192_1_0)) (ix2 i j)
      = s (ix2 i (0 : Fin 1)) + t (ix2 j (0 : Fin 1)) := by
  rw [addf_apply, colBcast_apply, rowBcast_apply]

/-! ## The rectifier and the mask -/

/-- For any array e of pair values whose entry (i, j) is x + y: the leaky rectifier of e (e where e ≥ 0, the slope
    times e elsewhere), kept where the adjacency word is positive and replaced by the fill elsewhere, is at (i, j) the
    spec's logit of x, y and the adjacency word there. Every scalar spread over the array reads as itself at each
    entry, and each elementwise operation reads entry by entry, so the two sides are the same expression. -/
private theorem maskRect_apply (e : FVec Ideal S8192x8192 .f32) (adj : IVec S8192x8192 32) (i j : Fin 8192)
    (x y : EReal) (he : e (ix2 i j) = x + y) :
    select (cmpi .sgt adj (broadcastInDim S8192x8192 ![] Facts₀.bcast_S_S8192x8192 (constantI S_ 32 0#32)))
        (select
          (cmpf .oge e
            (broadcastInDim S8192x8192 ![] Facts₀.bcast_S_S8192x8192 (constant (F := Ideal) S_ .f32 0x00000000#32)))
          e
          (mulf
            (broadcastInDim S8192x8192 ![] Facts₀.bcast_S_S8192x8192 (id (constant (F := Ideal) S_ .f32 0x3E4CCCCD#32)))
            e))
        (broadcastInDim S8192x8192 ![] Facts₀.bcast_S_S8192x8192 (constant (F := Ideal) S_ .f32 0xCF000000#32)) (ix2 i j)
      = logit x y (adj (ix2 i j)) := by
  unfold logit leaky Cert.Gat.slope fill
  rw [← he]
  rfl

/- The array of pair values is the sum of the spread source column and the spread target row, so its entry (i, j) is
   (source score of i) + (target score of j); the two scores are the spec's two halves applied to the projection; the
   rectifier and the mask then give the spec's logit. -/
/-- The logit of the pair (i, j). -/
theorem logitsV_apply (h : FVec Ideal S8192x512 .f32) (adj : IVec S8192x8192 32) (W : FVec Ideal S512x64 .f32)
    (a : FVec Ideal S128x1 .f32) (i j : Fin 8192) :
    logitsV (F := Ideal) h adj W a (ix2 i j)
      = logits (half (proj (toMat h) (toMat W)) (aSrc (toMat a))) (half (proj (toMat h) (toMat W)) (aDst (toMat a)))
          (toMat adj) i j := by
  unfold logitsV
  exact maskRect_apply _ adj i j _ _
    ((pairSum_apply _ _ i j).trans (congrArg₂ (· + ·) (srcScore_apply h W a i) (dstScore_apply h W a j)))

end Cert.ReferenceIdeal.RefScores

end
-- ==== Proof.RefValue.lean ====
/-
  The reference's tail read at an index: from a matrix of logits and the projected features, entry (i, k) of the result
  is the normalised row computation of row i of the logits.
-/
import proofs.«416510_j8246337208821_3_alg».proof.Proof.RefTerm
import proofs.«416510_j8246337208821_3_alg».proof.Proof.Spec
import proofs.«416510_j8246337208821_3_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Term Cert.Gat

variable [Cert.ReferenceIdeal.Facts]

/-! ## Layout: scalars spread over an array, a kept column spread along rows, a row index with its coordinate put back -/

/-- A scalar broadcast to any shape reads the scalar's one element everywhere. -/
private theorem splat_apply {α : Type} {t : Shape} (h : S_.BroadcastsInDim t (![] : Fin 0 → Fin t.rank)) (c : S_.Idx → α) (j : t.Idx) :
    broadcastInDim t ![] h c j = c ix0 :=
  broadcastInDim_apply ![] h c j ix0 fun a => a.elim0

/-- A vector of row values, made a column and spread along the rows, reads at (i, j) the vector at i. -/
private theorem keep_apply {α : Type} (h0 : S8192.BroadcastsInDim S8192x1 (![0] : Fin 1 → Fin S8192x1.rank))
    (h1 : S8192x1.BroadcastsInDim S8192x8192 (![0, 1] : Fin 2 → Fin S8192x8192.rank)) (v : S8192.Idx → α) (i j : Fin 8192) :
    broadcastInDim S8192x8192 ![0, 1] h1 (broadcastInDim S8192x1 ![0] h0 v) (ix2 i j) = v (ix1 i) := by
  refine (broadcastInDim_apply ![0, 1] h1 _ (ix2 i j) (ix2 i (0 : Fin 1)) fun a => ?_).trans ?_
  · match a with
    | ⟨0, _⟩ => rfl
    | ⟨1, _⟩ => rfl
  · refine broadcastInDim_apply ![0] h0 v (ix2 i (0 : Fin 1)) (ix1 i) fun a => ?_
    match a with
    | ⟨0, _⟩ => rfl

/-- Row i of a square array with coordinate k put back on the second axis is (i, k). -/
private theorem lift_row (h : S8192x8192.Reduces [1] S8192) (i : Fin 8192) (k : Fin (S8192x8192.size 1)) :
    h.lift (ix1 i) k = ix2 i (⟨k.val, k.isLt⟩ : Fin 8192) := by
  funext c; apply Fin.ext
  match c with
  | ⟨0, _⟩ => rfl
  | ⟨1, _⟩ => rfl

/-! ## The two row reductions -/

/-- The host's row maximum from −∞, at row i, is the fold of max over the row. -/
private theorem rowMax_apply (x : FVec Ideal S8192x8192 .f32) (i : Fin 8192) :
    Host.reduce FloatOps.maximumf x (constant (F := Ideal) S_ .f32 0xFF800000#32) Facts₀.reducesTo_S8192x8192_S8192_d1 Facts₀.h_S_ (ix1 i)
      = rowMax (fun j => x (ix2 i j)) := by
  have h : S8192x8192.Reduces [1] S8192 := by decide
  rw [Host.reduce_eq_fold_single FloatOps.maximumf x _ Facts₀.reducesTo_S8192x8192_S8192_d1 h Facts₀.h_S_]
  have hf : (x ∘ h.lift (ix1 i)) = fun j : Fin 8192 => x (ix2 i j) := funext fun k => congrArg x (lift_row h i k)
  unfold rowMax
  rw [hf]
  rfl

/-- The host's row sum from an initial scalar, at row i, is the scalar plus the sum over the row. -/
private theorem rowSum_apply (e : FVec Ideal S8192x8192 .f32) (c : FVec Ideal S_ .f32) (i : Fin 8192) :
    Host.reduceAdd e c Facts₀.reducesTo_S8192x8192_S8192_d1 Facts₀.h_S_ (ix1 i)
      = c ix0 + ∑ j : Fin 8192, e (ix2 i j) := by
  have h : S8192x8192.Reduces [1] S8192 := by decide
  show Ideal.hostReduceAdd Facts₀.reducesTo_S8192x8192_S8192_d1 e (c (Shape.Idx.first Facts₀.h_S_)) (ix1 i) = _
  rw [Ideal.hostReduceAdd_single Facts₀.reducesTo_S8192x8192_S8192_d1 h e _ (ix1 i), eq_ix0 (Shape.Idx.first Facts₀.h_S_)]
  refine congrArg (fun s => c ix0 + s) ?_
  exact Finset.sum_congr rfl fun k _ => congrArg e (lift_row h i k)

/-! ## The contraction with the features -/

/-- The mix of a square array of weights with the features, at (i, k): the sum over the row's positions j of weight (i, j)
    times feature (j, k); the contraction's one-coordinate indices are re-indexed by their coordinate. -/
private theorem dot_apply (q : FVec Ideal S8192x8192 .f32) (P : FVec Ideal S8192x64 .f32) (i : Fin 8192) (k : Fin 64) :
    Host.dotGeneral dot_S8192x8192_S8192x64_S8192x64_1_0_0_1_n_n none q P (ix2 i k)
      = ∑ j : Fin 8192, q (ix2 i j) * P (ix2 j k) := by
  simp only [Host.dotGeneral]
  rw [Ideal.dotGeneral_apply]
  rw [← Equiv.sum_comp (contrEquiv1 dot_S8192x8192_S8192x64_S8192x64_1_0_0_1_n_n 8192 rfl rfl).symm]
  refine Finset.sum_congr rfl fun j _ => ?_
  have l0 : ((dot_S8192x8192_S8192x64_S8192x64_1_0_0_1_n_n.lhsIdx (ix2 i k)
      ((contrEquiv1 dot_S8192x8192_S8192x64_S8192x64_1_0_0_1_n_n 8192 rfl rfl).symm j)) 0).val = i.val := rfl
  have l1 : ((dot_S8192x8192_S8192x64_S8192x64_1_0_0_1_n_n.lhsIdx (ix2 i k)
      ((contrEquiv1 dot_S8192x8192_S8192x64_S8192x64_1_0_0_1_n_n 8192 rfl rfl).symm j)) 1).val = j.val :=
    (DotDims.lhsIdx_val_of_single dot_S8192x8192_S8192x64_S8192x64_1_0_0_1_n_n (cl := 1) rfl (ix2 i k) _).trans
      (contrEquiv1_symm_val dot_S8192x8192_S8192x64_S8192x64_1_0_0_1_n_n 8192 rfl rfl j)
  have r0 : ((dot_S8192x8192_S8192x64_S8192x64_1_0_0_1_n_n.rhsIdx (ix2 i k)
      ((contrEquiv1 dot_S8192x8192_S8192x64_S8192x64_1_0_0_1_n_n 8192 rfl rfl).symm j)) 0).val = j.val :=
    (DotDims.rhsIdx_val_of_single dot_S8192x8192_S8192x64_S8192x64_1_0_0_1_n_n (cr := 0) rfl (ix2 i k) _).trans
      (contrEquiv1_symm_val dot_S8192x8192_S8192x64_S8192x64_1_0_0_1_n_n 8192 rfl rfl j)
  have r1 : ((dot_S8192x8192_S8192x64_S8192x64_1_0_0_1_n_n.rhsIdx (ix2 i k)
      ((contrEquiv1 dot_S8192x8192_S8192x64_S8192x64_1_0_0_1_n_n 8192 rfl rfl).symm j)) 1).val = k.val := rfl
  have hl : dot_S8192x8192_S8192x64_S8192x64_1_0_0_1_n_n.lhsIdx (ix2 i k)
      ((contrEquiv1 dot_S8192x8192_S8192x64_S8192x64_1_0_0_1_n_n 8192 rfl rfl).symm j) = ix2 i j := by
    funext a; apply Fin.ext
    match a with
    | ⟨0, _⟩ => exact l0
    | ⟨1, _⟩ => exact l1
  have hr : dot_S8192x8192_S8192x64_S8192x64_1_0_0_1_n_n.rhsIdx (ix2 i k)
      ((contrEquiv1 dot_S8192x8192_S8192x64_S8192x64_1_0_0_1_n_n 8192 rfl rfl).symm j) = ix2 j k := by
    funext a; apply Fin.ext
    match a with
    | ⟨0, _⟩ => exact r0
    | ⟨1, _⟩ => exact r1
  rw [hl, hr]

/-! ## The stages of the row softmax at an index -/

/-- The row maximum compared once more with −∞, at row i. -/
private theorem mx_apply (x : FVec Ideal S8192x8192 .f32) (i : Fin 8192) :
    maximumf (broadcastInDim S8192 ![] Facts₀.bcast_S_S8192 (constant (F := Ideal) S_ .f32 0xFF800000#32))
      (Host.reduce FloatOps.maximumf x (constant (F := Ideal) S_ .f32 0xFF800000#32) Facts₀.reducesTo_S8192x8192_S8192_d1 Facts₀.h_S_) (ix1 i)
      = max (Ideal.ofBits .f32 0xFF800000#32) (rowMax (fun j => x (ix2 i j))) := by
  rw [maximumf_apply, splat_apply, rowMax_apply]
  rfl

/-- The unnormalised weight at (i, j): the exponential of the logit less the row's value. -/
private theorem ex_apply (x : FVec Ideal S8192x8192 .f32) (m : FVec Ideal S8192 .f32) (i j : Fin 8192) :
    Host.exp (subf x (broadcastInDim S8192x8192 ![0, 1] Facts₀.bcast_S8192x1_S8192x8192_0_1
      (broadcastInDim S8192x1 ![0] Facts₀.bcast_S8192_S8192x1_0 m))) (ix2 i j) = Ideal.exp (x (ix2 i j) - m (ix1 i)) := by
  show FloatOps.hostUnary .exp (x (ix2 i j) - broadcastInDim S8192x8192 ![0, 1] Facts₀.bcast_S8192x1_S8192x8192_0_1
      (broadcastInDim S8192x1 ![0] Facts₀.bcast_S8192_S8192x1_0 m) (ix2 i j)) = _
  rw [keep_apply, Ideal.hostUnary_exp_def]

/-- The normalised weight at (i, j): the weight over the row's weight sum taken from 0. -/
private theorem q_apply (e : FVec Ideal S8192x8192 .f32) (i j : Fin 8192) :
    Host.divf e (broadcastInDim S8192x8192 ![0, 1] Facts₀.bcast_S8192x1_S8192x8192_0_1
      (broadcastInDim S8192x1 ![0] Facts₀.bcast_S8192_S8192x1_0
        (Host.reduceAdd e (constant (F := Ideal) S_ .f32 0x00000000#32) Facts₀.reducesTo_S8192x8192_S8192_d1 Facts₀.h_S_))) (ix2 i j)
      = Ideal.div (e (ix2 i j)) (Ideal.ofBits .f32 0x00000000#32 + ∑ j' : Fin 8192, e (ix2 i j')) := by
  show FloatOps.hostDivf (e (ix2 i j)) (broadcastInDim S8192x8192 ![0, 1] Facts₀.bcast_S8192x1_S8192x8192_0_1
      (broadcastInDim S8192x1 ![0] Facts₀.bcast_S8192_S8192x1_0
        (Host.reduceAdd e (constant (F := Ideal) S_ .f32 0x00000000#32) Facts₀.reducesTo_S8192x8192_S8192_d1 Facts₀.h_S_)) (ix2 i j)) = _
  rw [keep_apply, rowSum_apply, Ideal.hostDivf_def]
  rfl

/-! ## The mixed value, the unit, and the tail -/

/-- The exponential linear unit as the program spells it, at (i, k): the clipped form of the value there. -/
private theorem unit_apply (y : FVec Ideal S8192x64 .f32) (i : Fin 8192) (k : Fin 64) :
    select (cmpf .ogt y (broadcastInDim S8192x64 ![] Facts₀.bcast_S_S8192x64 (constant (F := Ideal) S_ .f32 0x00000000#32))) y
      (mulf (broadcastInDim S8192x64 ![] Facts₀.bcast_S_S8192x64 (constant (F := Ideal) S_ .f32 0x3F800000#32))
        (Host.expm1 (select (cmpf .ogt y (broadcastInDim S8192x64 ![] Facts₀.bcast_S_S8192x64 (constant (F := Ideal) S_ .f32 0x00000000#32)))
          (broadcastInDim S8192x64 ![] Facts₀.bcast_S_S8192x64 (id (constant (F := Ideal) S_ .f32 0x00000000#32))) y))) (ix2 i k)
      = eluClipped (y (ix2 i k)) := by
  unfold eluClipped
  rfl

/-- The mixed value at (i, k): the sum over j of the normalised weight (i, j) times feature (j, k). -/
private theorem mix_apply (x : FVec Ideal S8192x8192 .f32) (P : FVec Ideal S8192x64 .f32) (i : Fin 8192) (k : Fin 64) :
    Host.dotGeneral dot_S8192x8192_S8192x64_S8192x64_1_0_0_1_n_n none
      (Host.divf
        (Host.exp (subf x (broadcastInDim S8192x8192 ![0, 1] Facts₀.bcast_S8192x1_S8192x8192_0_1
          (broadcastInDim S8192x1 ![0] Facts₀.bcast_S8192_S8192x1_0
            (maximumf (broadcastInDim S8192 ![] Facts₀.bcast_S_S8192 (constant (F := Ideal) S_ .f32 0xFF800000#32))
              (Host.reduce FloatOps.maximumf x (constant (F := Ideal) S_ .f32 0xFF800000#32) Facts₀.reducesTo_S8192x8192_S8192_d1 Facts₀.h_S_))))))
        (broadcastInDim S8192x8192 ![0, 1] Facts₀.bcast_S8192x1_S8192x8192_0_1
          (broadcastInDim S8192x1 ![0] Facts₀.bcast_S8192_S8192x1_0
            (Host.reduceAdd
              (Host.exp (subf x (broadcastInDim S8192x8192 ![0, 1] Facts₀.bcast_S8192x1_S8192x8192_0_1
                (broadcastInDim S8192x1 ![0] Facts₀.bcast_S8192_S8192x1_0
                  (maximumf (broadcastInDim S8192 ![] Facts₀.bcast_S_S8192 (constant (F := Ideal) S_ .f32 0xFF800000#32))
                    (Host.reduce FloatOps.maximumf x (constant (F := Ideal) S_ .f32 0xFF800000#32) Facts₀.reducesTo_S8192x8192_S8192_d1 Facts₀.h_S_))))))
              (constant (F := Ideal) S_ .f32 0x00000000#32) Facts₀.reducesTo_S8192x8192_S8192_d1 Facts₀.h_S_))))
      P (ix2 i k)
    = ∑ j : Fin 8192,
        Ideal.div
          (Ideal.exp (x (ix2 i j) - max (Ideal.ofBits .f32 0xFF800000#32) (rowMax (fun j => x (ix2 i j)))))
          (Ideal.ofBits .f32 0x00000000#32
            + ∑ j' : Fin 8192, Ideal.exp (x (ix2 i j') - max (Ideal.ofBits .f32 0xFF800000#32) (rowMax (fun j => x (ix2 i j)))))
        * P (ix2 j k) := by
  have w : ∀ j : Fin 8192,
      Host.exp (subf x (broadcastInDim S8192x8192 ![0, 1] Facts₀.bcast_S8192x1_S8192x8192_0_1
        (broadcastInDim S8192x1 ![0] Facts₀.bcast_S8192_S8192x1_0
          (maximumf (broadcastInDim S8192 ![] Facts₀.bcast_S_S8192 (constant (F := Ideal) S_ .f32 0xFF800000#32))
            (Host.reduce FloatOps.maximumf x (constant (F := Ideal) S_ .f32 0xFF800000#32) Facts₀.reducesTo_S8192x8192_S8192_d1 Facts₀.h_S_))))) (ix2 i j)
        = Ideal.exp (x (ix2 i j) - max (Ideal.ofBits .f32 0xFF800000#32) (rowMax (fun j => x (ix2 i j)))) :=
    fun j => by rw [ex_apply, mx_apply]
  rw [dot_apply]
  refine Finset.sum_congr rfl fun j _ => ?_
  rw [q_apply, w j, Finset.sum_congr rfl fun j' _ => w j']

/-- The tail at (i, k). -/
theorem tailV_apply (x : FVec Ideal S8192x8192 .f32) (P : FVec Ideal S8192x64 .f32) (i : Fin 8192) (k : Fin 64) :
    tailV (F := Ideal) x P (ix2 i k) = rowNormalised (fun j => x (ix2 i j)) (toMat P) k := by
  -- the outermost operation is the unit applied to the mixed value; the mixed value at (i, k) is the sum the normalised
  -- row computation feeds to its unit, with feature (j, k) read off the matrix of P
  unfold tailV
  refine (unit_apply _ i k).trans ?_
  unfold rowNormalised
  exact congrArg eluClipped (mix_apply x P i k)

end Cert.ReferenceIdeal.RefValue

end
-- ==== Proof.RefResult.lean ====
/-
  The reference's term is the normalised arrangement of the layer: its tail read at (i, k) is the normalised row
  computation of row i of its logits, its logits are the spec's, and its projected features are P.
-/
import proofs.«416510_j8246337208821_3_alg».proof.Proof.RefScores
import proofs.«416510_j8246337208821_3_alg».proof.Proof.RefValue

noncomputable section

namespace Cert.ReferenceIdeal.RefResult

open Idealize.ShloMosaic Idealize.ShloMosaic.ValueIdx Cert.ReferenceIdeal Cert.ReferenceIdeal.Term Cert.Gat

variable [Cert.ReferenceIdeal.Facts]

/-- The reference's result array, as the matrix of normalised rows. -/
theorem refTerm_eq (h : FVec Ideal S8192x512 .f32) (adj : IVec S8192x8192 32) (W : FVec Ideal S512x64 .f32)
    (a : FVec Ideal S128x1 .f32) :
    refTerm (F := Ideal) h adj W a = ofMat (outNormalised (toMat h) (toMat adj) (toMat W) (toMat a)) := by
  funext y
  obtain ⟨i, k, rfl⟩ : ∃ (i : Fin 8192) (k : Fin 64), y = ix2 i k := ⟨y 0, y 1, eq_ix2 y⟩
  have e1 : refTerm (F := Ideal) h adj W a (ix2 i k)
      = rowNormalised (fun j => logitsV (F := Ideal) h adj W a (ix2 i j)) (toMat (projV (F := Ideal) h W)) k :=
    Cert.ReferenceIdeal.RefValue.tailV_apply _ _ i k
  have e2 : (fun j => logitsV (F := Ideal) h adj W a (ix2 i j))
      = logits (half (proj (toMat h) (toMat W)) (aSrc (toMat a))) (half (proj (toMat h) (toMat W)) (aDst (toMat a)))
          (toMat adj) i :=
    funext fun j => Cert.ReferenceIdeal.RefScores.logitsV_apply h adj W a i j
  have e3 : toMat (projV (F := Ideal) h W) = proj (toMat h) (toMat W) :=
    funext fun j => funext fun k' => Cert.ReferenceIdeal.RefScores.projV_apply h W j k'
  rw [e1, e2, e3]
  rfl

end Cert.ReferenceIdeal.RefResult

end
-- ==== Proof.RowLaw.lean ====
/-
  The law that joins the two arrangements of a row: for a row of real logits and real features, the unnormalised
  weights mixed into the features extended by a ones column, column k over column 64, is the normalised weights
  mixed into the features; and the two spellings of the exponential linear unit agree on a real number.
-/
import proofs.«416510_j8246337208821_3_alg».proof.Proof.Spec
import Mathlib.Data.EReal.Inv
import Mathlib.Analysis.SpecialFunctions.Exp

noncomputable section

open scoped BigOperators

namespace Cert.Gat

open Idealize.ShloMosaic

/-! ## The words the two arrangements carry, as extended reals -/

/-- The f32 pattern with sign set, exponent all ones and no fraction is −∞. -/
private theorem word_negInf : Ideal.ofBits .f32 0xFF800000#32 = ⊥ := by simp [Ideal.ofBits, Ideal.ieee]

/-- The all-zero f32 pattern is 0. -/
private theorem word_zero : Ideal.ofBits .f32 0x00000000#32 = 0 := by simp [Ideal.ofBits, Ideal.ieee]

/-- Exponent equal to the bias and no fraction, at f32: 2^23 · 2^(-23) = 1. -/
private theorem word_one : Ideal.ofBits .f32 0x3F800000#32 = 1 := by
  simp [Ideal.ofBits, Ideal.ieee, -EReal.coe_mul]; norm_num

/-- The same number at bf16: 2^7 · 2^(-7) = 1. -/
private theorem word_oneB : Ideal.ofBits .bf16 0x3F80#16 = 1 := by
  simp [Ideal.ofBits, Ideal.ieee, -EReal.coe_mul]; norm_num

/-! ## Real numbers inside the extended reals -/

/-- The embedding of ℝ commutes with a finite sum: by induction on the index set, one summand at a time, since it
    commutes with the sum of two reals. -/
private theorem coe_sum {ι : Type} (s : Finset ι) (r : ι → ℝ) :
    ((∑ j ∈ s, r j : ℝ) : EReal) = ∑ j ∈ s, (r j : EReal) := by
  classical
  induction s using Finset.induction_on with
  | empty => simp
  | insert a s ha ih => rw [Finset.sum_insert ha, Finset.sum_insert ha, EReal.coe_add, ih]

/-- The exponential of a difference of two reals is the real exponential of the real difference. -/
private theorem exp_coe_sub (x y : ℝ) :
    Ideal.exp ((x : EReal) - (y : EReal)) = ((Real.exp (x - y) : ℝ) : EReal) := by
  rw [← EReal.coe_sub]; rfl

/-- The maximum of a row of reals, folded from −∞, is a real number: it is below +∞ because −∞ and every entry
    are, and it is not −∞ because it is at least the first entry. Which real it is plays no part below. -/
private theorem rowMax_real (g : Fin 8192 → ℝ) : ∃ M : ℝ, rowMax (fun j => (g j : EReal)) = (M : EReal) := by
  have htop : rowMax (fun j => (g j : EReal)) ≠ ⊤ := by
    apply ne_of_lt
    unfold rowMax
    rw [Finset.fold_max_lt, word_negInf]
    exact ⟨bot_lt_top, fun x _ => EReal.coe_lt_top (g x)⟩
  have hbot : rowMax (fun j => (g j : EReal)) ≠ ⊥ := by
    have h0 : ((g 0 : ℝ) : EReal) ≤ rowMax (fun j => (g j : EReal)) := by
      unfold rowMax
      rw [Finset.le_fold_max]
      exact Or.inr ⟨0, Finset.mem_univ _, le_rfl⟩
    intro hb
    rw [hb] at h0
    exact EReal.coe_ne_bot (g 0) (le_bot_iff.mp h0)
  exact ⟨(rowMax (fun j => (g j : EReal))).toReal, (EReal.coe_toReal htop hbot).symm⟩

/-! ## The extended features, column by column -/

/-- A column below 64 of the extended features is that column of the features. -/
private theorem aug_low (P : Fin 8192 → Fin 64 → EReal) (j : Fin 8192) (k : Fin 64) (h : k.val < 128) :
    aug P j ⟨k.val, h⟩ = P j k := by
  unfold aug; rw [dif_pos k.isLt]

/-- Column 64 of the extended features is the column of ones. -/
private theorem aug_ones (P : Fin 8192 → Fin 64 → EReal) (j : Fin 8192) (h : 64 < 128) :
    aug P j ⟨64, h⟩ = 1 := by
  unfold aug; rw [dif_neg (by simp), if_pos rfl, word_oneB]

/-! ## The two spellings of the exponential linear unit -/

/-- They agree everywhere. Where 0 < x both give x. Elsewhere the clipped input is x itself, so the second
    spelling is 1 · (exp x − 1), and 1 is the unit of the product. -/
private theorem elu_eq (x : EReal) : eluDirect x = eluClipped x := by
  unfold eluDirect eluClipped
  rw [word_zero, word_one]
  by_cases h : (0 : EReal) < x
  · have hc : Ideal.cmp .ogt x 0 = 1#1 := by simp [Ideal.cmp, h]
    rw [hc, ValueIdx.select_one, ValueIdx.select_one]
  · have hc : Ideal.cmp .ogt x 0 = 0#1 := by simp [Ideal.cmp, h]
    rw [hc, ValueIdx.select_zero, ValueIdx.select_zero, ValueIdx.select_zero, one_mul]

/-! ## The row law -/

/-- One row: fused = normalised, when the logits and the features are real numbers.

    Write the logits and the features as reals g j and p j k, and the row maximum as a real M; comparing M with −∞
    once more changes nothing. Every weight is then the real w j = exp (g j − M) > 0. On the fused side column k of
    the product is N = Σ_j w j · p j k and column 64 is S = Σ_j w j · 1, a sum of positive reals over a nonempty
    index set, so S ≠ 0 and the quotient is N · (1 / S). On the normalised side the sum from 0 is S again, each
    weight becomes w j · (1 / S), and the mix is Σ_j w j · (1 / S) · p j k. Over ℝ the factor 1 / S comes out of the
    sum, term by term. The two units then agree at that one real number. -/
theorem rowFused_eq_rowNormalised (f : Fin 8192 → EReal) (P : Fin 8192 → Fin 64 → EReal)
    (hf : ∀ j, IsReal (f j)) (hP : ∀ j k, IsReal (P j k)) (k : Fin 64) :
    rowFused f (aug P) k = rowNormalised f P k := by
  lift f to Fin 8192 → ℝ using hf
  lift P to Fin 8192 → Fin 64 → ℝ using hP
  obtain ⟨M, hM⟩ := rowMax_real f
  unfold rowFused rowNormalised
  simp only [hM, word_negInf, max_bot_left, word_zero, zero_add, aug_low, aug_ones, mul_one, exp_coe_sub]
  have hS : (∑ x, Real.exp (f x - M)) ≠ 0 :=
    (Finset.sum_pos (fun x _ => Real.exp_pos (f x - M)) Finset.univ_nonempty).ne'
  simp only [← EReal.coe_mul, ← coe_sum, Ideal.div_coe hS]
  rw [elu_eq]
  refine congrArg (fun r : ℝ => eluClipped (r : EReal)) ?_
  show (∑ x, Real.exp (f x - M) * P x k) * (1 / ∑ x, Real.exp (f x - M))
      = ∑ x, Real.exp (f x - M) * (1 / ∑ x, Real.exp (f x - M)) * P x k
  rw [Finset.sum_mul]
  refine Finset.sum_congr rfl fun x _ => ?_
  ring

end Cert.Gat

end
-- ==== Proof.Reals.lean ====
/-
  Finite inputs make every intermediate a real number: the projected features (finite sums of products of reals),
  the two score vectors, and every logit (a real score through the rectifier, or the finite fill). With the row law
  this makes the two arrangements of the whole layer one function.
-/
import proofs.«416510_j8246337208821_3_alg».proof.Proof.Spec
import proofs.«416510_j8246337208821_3_alg».proof.Proof.RowLaw

noncomputable section

open scoped BigOperators

namespace Cert.Gat

open Idealize.ShloMosaic

/-! ## The real numbers inside the extended reals are closed under the layer's arithmetic -/

/-- A real number, seen as an extended real, is neither infinity. -/
private theorem isReal_coe (r : ℝ) : IsReal (r : EReal) := ⟨EReal.coe_ne_top r, EReal.coe_ne_bot r⟩

/-- Being real is having a real witness: an extended real off both infinities is the image of its real part. -/
private theorem isReal_iff (x : EReal) : IsReal x ↔ ∃ r : ℝ, x = (r : EReal) := by
  constructor
  · rintro ⟨ht, hb⟩
    exact ⟨x.toReal, (EReal.coe_toReal ht hb).symm⟩
  · rintro ⟨r, rfl⟩
    exact isReal_coe r

/-- The product of two reals is real: on witnesses r and s it is the image of r · s. -/
private theorem isReal_mul {x y : EReal} (hx : IsReal x) (hy : IsReal y) : IsReal (x * y) := by
  obtain ⟨r, rfl⟩ := (isReal_iff x).1 hx
  obtain ⟨s, rfl⟩ := (isReal_iff y).1 hy
  rw [← EReal.coe_mul]
  exact isReal_coe _

/-- The sum of two reals is real: on witnesses r and s it is the image of r + s. -/
private theorem isReal_add {x y : EReal} (hx : IsReal x) (hy : IsReal y) : IsReal (x + y) := by
  obtain ⟨r, rfl⟩ := (isReal_iff x).1 hx
  obtain ⟨s, rfl⟩ := (isReal_iff y).1 hy
  rw [← EReal.coe_add]
  exact isReal_coe _

/-- Zero is real. -/
private theorem isReal_zero : IsReal (0 : EReal) := by
  rw [← EReal.coe_zero]
  exact isReal_coe 0

/-- A finite sum of reals is real: the empty sum is 0, and each further term keeps the sum real. The sum is never
    written out; only closure under + and the realness of 0 are used. -/
private theorem isReal_sum {ι : Type} (s : Finset ι) (g : ι → EReal) (hg : ∀ i ∈ s, IsReal (g i)) :
    IsReal (∑ i ∈ s, g i) :=
  Finset.sum_induction g IsReal (fun _ _ hx hy => isReal_add hx hy) isReal_zero hg

/-! ## The two constant words are real -/

/-- A 32-bit pattern whose eight exponent bits are not all ones denotes a real number: both the subnormal and the
    normal reading are (sign) · (integer) · (power of two), a real, whatever the sign bit and the significand are. -/
private theorem isReal_ieee (b : BitVec 32) (hb : (b.extractLsb' 23 8).toNat ≠ 2 ^ 8 - 1) :
    IsReal (Ideal.ieee 8 23 b) := by
  unfold Ideal.ieee
  simp only [if_neg hb]
  split_ifs <;> exact isReal_coe _

/-- The rectifier's slope is real: its exponent field is 0x7C, not 0xFF. -/
private theorem isReal_slope : IsReal slope := by
  show IsReal (Ideal.ieee 8 23 0x3E4CCCCD#32)
  exact isReal_ieee _ (by decide)

/-- The fill is real: its exponent field is 0x9E, not 0xFF. -/
private theorem isReal_fill : IsReal fill := by
  show IsReal (Ideal.ieee 8 23 0xCF000000#32)
  exact isReal_ieee _ (by decide)

/-! ## A choice between two reals, the rectifier and the logit -/

/-- A choice by a one-bit word returns one of its two arguments, so it is real when both are. -/
private theorem isReal_select (c : BitVec 1) {u v : EReal} (hu : IsReal u) (hv : IsReal v) :
    IsReal (Scalar.select c u v) := by
  unfold Scalar.select
  split_ifs
  · exact hu
  · exact hv

/-- The leaky rectifier of a real x is x or slope · x, both real. -/
private theorem isReal_leaky {x : EReal} (hx : IsReal x) : IsReal (leaky x) :=
  isReal_select _ hx (isReal_mul isReal_slope hx)

/-- A logit is the rectifier of s + t or the fill, both real when s and t are. -/
private theorem isReal_logit {s t : EReal} (hs : IsReal s) (ht : IsReal t) (e : BitVec 32) :
    IsReal (logit s t e) :=
  isReal_select _ (isReal_leaky (isReal_add hs ht)) isReal_fill

/-! ## The projection and the scores -/

/-- P i k = Σ_d h i d · W d k is a sum over the 512 input features of products of reals. -/
private theorem isReal_proj (h : Fin 8192 → Fin 512 → EReal) (W : Fin 512 → Fin 64 → EReal)
    (hh : ∀ i d, IsReal (h i d)) (hW : ∀ d k, IsReal (W d k)) (i : Fin 8192) (k : Fin 64) :
    IsReal (proj h W i k) :=
  isReal_sum _ _ (fun d _ => isReal_mul (hh i d) (hW d k))

/-- A score Σ_k P i k · a k is a sum over the 64 projected features of products of reals. -/
private theorem isReal_half (P : Fin 8192 → Fin 64 → EReal) (a : Fin 64 → EReal)
    (hP : ∀ i k, IsReal (P i k)) (ha : ∀ k, IsReal (a k)) (i : Fin 8192) : IsReal (half P a i) :=
  isReal_sum _ _ (fun k _ => isReal_mul (hP i k) (ha k))

/-! ## The layer -/

/-- The whole layer: fused = normalised on finite inputs. Entry (i, k) of either side is the corresponding row
    arrangement applied to row i's logits and the projected features; both are real (each half of the attention
    vector is a list of entries of a, so both score vectors are real), and the row law identifies the two. -/
theorem outFused_eq_outNormalised (h : Fin 8192 → Fin 512 → EReal) (adj : Fin 8192 → Fin 8192 → BitVec 32)
    (W : Fin 512 → Fin 64 → EReal) (a : Fin 128 → Fin 1 → EReal)
    (hh : ∀ i d, IsReal (h i d)) (hW : ∀ d k, IsReal (W d k)) (ha : ∀ r u, IsReal (a r u)) :
    outFused h adj W a = outNormalised h adj W a := by
  have hP : ∀ j k, IsReal (proj h W j k) := isReal_proj h W hh hW
  have hs : ∀ i, IsReal (half (proj h W) (aSrc a) i) :=
    isReal_half _ _ hP (fun _ => ha _ _)
  have ht : ∀ j, IsReal (half (proj h W) (aDst a) j) :=
    isReal_half _ _ hP (fun _ => ha _ _)
  funext i k
  unfold outFused outNormalised
  exact rowFused_eq_rowNormalised _ _ (fun j => isReal_logit (hs i) (ht j) (adj i j)) hP k

end Cert.Gat

end
-- ==== Proof.Finite.lean ====
/-
  The precondition read: where the printed predicate is all ones, every entry of h, W and a is a real number
  (its absolute value is below +∞).

  The predicate is a conjunction of three "for all entries" statements, one per float input: the conjunction of
  the bits |x i| < +∞ over every index i of the array. A conjunction of bits that is one has every bit one; a bit
  |x i| < +∞ that is one says max (x i) (−x i) < ⊤ on the extended reals; and an extended real whose absolute value
  is below ⊤ is neither ⊤ nor ⊥, since −⊥ = ⊤.
-/
import proofs.«416510_j8246337208821_3_alg».proof.Pre_finite_inputs
import proofs.«416510_j8246337208821_3_alg».proof.Proof.Gen.Pre_finite_inputs
import proofs.«416510_j8246337208821_3_alg».proof.Proof.Spec
import Idealize.ShloMosaic.Lib.ValueIdx
import Idealize.ShloMosaic.Lib.ReduceAll
import Idealize.ShloMosaic.PureOps.Ideal.Laws

noncomputable section

namespace Cert.Pre_finite_inputs.Finite

open Idealize.ShloMosaic Idealize.ShloMosaic.ValueIdx Cert.Pre_finite_inputs Cert.Gat

/-- The word the predicate compares against denotes +∞: exponent field all ones, fraction zero, sign clear. -/
private theorem top_word : Ideal.ofBits .f32 0x7F800000#32 = (⊤ : EReal) := by
  simp [Ideal.ofBits, Ideal.ieee]

/-- An extended real x with max x (−x) < ⊤ is a real number: at x = ⊤ the maximum is ⊤ itself, at x = ⊥ it is
    −⊥ = ⊤, and neither is below ⊤; a real is neither infinity. -/
private theorem isReal_of_abs_lt_top (x : EReal) (hx : max x (-x) < ⊤) : IsReal x := by
  induction x using EReal.rec with
  | bot => simp at hx
  | coe r => exact ⟨EReal.coe_ne_top r, EReal.coe_ne_bot r⟩
  | top => simp at hx

/-- A rank-0 array has one index. -/
private instance : Subsingleton S_.Idx := ⟨fun a b => funext fun d => d.elim0⟩

/-- One input's conjunct, for an array x of any shape s: if the conjunction over all indices of s of the bits
    "|x i| below the +∞ word" is one, then every x i is real. The conjunction is opened by the law that an "and" of
    bits equal to one had only ones; the bit at i is then the comparison max (x i) (−x i) < ⊤. -/
private theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
        (cmpf .olt (Host.absf x) (broadcastInDim s ![] hb (constant (F := Ideal) S_ .f32 0x7F800000#32))) init hr hu ix0 = 1#1)
    (i : s.Idx) : IsReal (x i) := by
  have h1 := Host.reduce_andi_all _ init hr hu ix0 e i
  have h2 : Ideal.cmp .olt (max (x i) (-(x i))) (Ideal.ofBits .f32 0x7F800000#32) = 1#1 := h1
  rw [top_word] at h2
  have h3 : max (x i) (-(x i)) < ⊤ := by
    by_contra hn
    simp [Ideal.cmp, hn] at h2
  exact isReal_of_abs_lt_top _ h3

/-- Every entry of the three float inputs is real where the predicate holds. -/
theorem real_of_pre [Cert.Pre_finite_inputs.Facts] (h : FVec Ideal S8192x512 .f32) (adj : IVec S8192x8192 32)
    (W : FVec Ideal S512x64 .f32) (a : FVec Ideal S128x1 .f32)
    (hpre : Cert.Pre_finite_inputs.fn (F := Ideal) h adj W a = fun _ => 1#1) :
    (∀ i, IsReal (h i)) ∧ (∀ i, IsReal (W i)) ∧ (∀ i, IsReal (a i)) := by
  have h0 := congrFun hpre ix0
  dsimp only [Cert.Pre_finite_inputs.fn] at h0
  -- the outer "and" of two bits is one: both are; the same once more for the inner one
  obtain ⟨h8, h12⟩ := IntOp.andi_eq_one.1 h0
  obtain ⟨h3, h7⟩ := IntOp.andi_eq_one.1 h8
  exact ⟨real_of_all h _ _ _ _ h3, real_of_all W _ _ _ _ h7, real_of_all a _ _ _ _ h12⟩

end Cert.Pre_finite_inputs.Finite

end
-- ==== Proof.lean ====
/-
  The certificate of the dense graph-attention layer: both idealized programs compute, row by row, the exponential
  linear unit of the softmax-weighted mean of the projected features; the kernel program mixes the unnormalised
  weights into the features extended by a ones column and divides afterwards, the reference normalises first, and on
  finite inputs the two are one function (Proof/RowLaw.lean, Proof/Reals.lean).
-/
import proofs.«416510_j8246337208821_3_alg».proof.Defs
import proofs.«416510_j8246337208821_3_alg».proof.Proof.Gen.Kernel
import proofs.«416510_j8246337208821_3_alg».proof.Proof.Gen.Kernel.Frame
import proofs.«416510_j8246337208821_3_alg».proof.Proof.Gen.KernelIdeal
import proofs.«416510_j8246337208821_3_alg».proof.Proof.Gen.KernelIdeal.Frame
import proofs.«416510_j8246337208821_3_alg».proof.Proof.Gen.ReferenceIdeal
import proofs.«416510_j8246337208821_3_alg».proof.Proof.Gen.Pre_finite_inputs
import proofs.«416510_j8246337208821_3_alg».proof.Proof.KernelRun
import proofs.«416510_j8246337208821_3_alg».proof.Proof.KernelValue
import proofs.«416510_j8246337208821_3_alg».proof.Proof.RefRun
import proofs.«416510_j8246337208821_3_alg».proof.Proof.RefResult
import proofs.«416510_j8246337208821_3_alg».proof.Proof.Reals
import proofs.«416510_j8246337208821_3_alg».proof.Proof.Finite
import Idealize.ShloMosaic.Adequacy
import Idealize.ShloMosaic.Init

noncomputable section

namespace Cert.Proof

open Idealize.ShloMosaic Idealize.ShloMosaic.ValueIdx Idealize.SL.Sem Cert.Gat

/-- The three frames are the generated ones (the reference's is its run with the result dropped); nothing was rewritten
    by the idealization; and the two idealized programs end with one result: the kernel program's result buffer holds
    the fused arrangement of the layer, the reference's the normalised one, of arguments that agree, and the two
    arrangements are one function where the float inputs are finite. -/
theorem claim : Cert.Claim := ⟨Cert.Kernel.Gen.facts, Cert.KernelIdeal.Gen.facts, Cert.ReferenceIdeal.Gen.facts, Cert.Pre_finite_inputs.Gen.facts, by
  letI := Cert.Kernel.Gen.facts
  letI := Cert.KernelIdeal.Gen.facts
  letI := Cert.ReferenceIdeal.Gen.facts
  letI := Cert.Pre_finite_inputs.Gen.facts
  refine ⟨fun m ρ _ => Cert.Kernel.Gen.frame m ρ, fun m ρ _ => Cert.KernelIdeal.Gen.frame m ρ, ?_, trivial, ?_⟩
  · intro m ρ _
    exact (θ_run Cert.ReferenceIdeal.defs _ _).mono (fun _ h c => (h c).2) (Cert.ReferenceIdeal.RefRun.run (F := Ideal) m ρ)
  · intro m ρ m' ρ' hpre hagree
    refine ⟨fun c => ofMat (outFused (toMat (m ((c.tc : Thread _ _).loc Cert.KernelIdeal.main_arg0)))
        (toMat (m ((c.tc : Thread _ _).loc Cert.KernelIdeal.main_arg1)))
        (toMat (m ((c.tc : Thread _ _).loc Cert.KernelIdeal.main_arg2)))
        (toMat (m ((c.tc : Thread _ _).loc Cert.KernelIdeal.main_arg3)))), ?_, ?_⟩
    · exact (θ_run Cert.KernelIdeal.defs _ _).mono
        (fun r h c => ⟨(h c).1.trans (Cert.KernelIdeal.Value.result_eq m ρ c), (h c).2⟩)
        (Cert.KernelIdeal.Run.run_result (F := Ideal) m ρ)
    · refine (θ_run Cert.ReferenceIdeal.defs _ _).mono (fun r h c => ⟨(h c).1.trans ?_, (h c).2⟩)
        (Cert.ReferenceIdeal.RefRun.run (F := Ideal) m' ρ')
      rw [(hagree c).1, (hagree c).2.1, (hagree c).2.2.1, (hagree c).2.2.2, Cert.ReferenceIdeal.RefResult.refTerm_eq]
      obtain ⟨hh, hW, ha⟩ := Cert.Pre_finite_inputs.Finite.real_of_pre _ _ _ _ (hpre c)
      exact congrArg ofMat (outFused_eq_outNormalised _ _ _ _ (fun i d => hh _) (fun d k => hW _) (fun r u => ha _)).symm⟩

end Cert.Proof

end
